-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8 : Shape := ⟨2, ![131072, 8]⟩
abbrev S8x64x9 : Shape := ⟨3, ![8, 64, 9]⟩
abbrev S8x64 : Shape := ⟨2, ![8, 64]⟩
abbrev S8x64x64 : Shape := ⟨3, ![8, 64, 64]⟩
abbrev S8x1x64 : Shape := ⟨3, ![8, 1, 64]⟩
abbrev S8x1 : Shape := ⟨2, ![8, 1]⟩
abbrev S_ : Shape := ⟨0, ![]⟩

class Facts : Prop where
  bcast_S_S131072x8 : S_.BroadcastsInDim S131072x8 (![] : Fin 0 → Fin S131072x8.rank)
  reducesTo_S131072x8_S_d0_1 : S131072x8.ReducesTo [0, 1] S_
  h_S_ : 0 < S_.numel
  bcast_S_S8x64x9 : S_.BroadcastsInDim S8x64x9 (![] : Fin 0 → Fin S8x64x9.rank)
  reducesTo_S8x64x9_S_d0_1_2 : S8x64x9.ReducesTo [0, 1, 2] S_
  bcast_S_S8x64 : S_.BroadcastsInDim S8x64 (![] : Fin 0 → Fin S8x64.rank)
  reducesTo_S8x64_S_d0_1 : S8x64.ReducesTo [0, 1] S_
  bcast_S_S8x64x64 : S_.BroadcastsInDim S8x64x64 (![] : Fin 0 → Fin S8x64x64.rank)
  reducesTo_S8x64x64_S_d0_1_2 : S8x64x64.ReducesTo [0, 1, 2] S_
  bcast_S_S8x1x64 : S_.BroadcastsInDim S8x1x64 (![] : Fin 0 → Fin S8x1x64.rank)
  reducesTo_S8x1x64_S_d0_1_2 : S8x1x64.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part2 {F : FTy → Type} [FloatOps F] (main_arg7 : FVec F S8x64 .f32) (main_arg8 : FVec F S8x1x64 .f32) (main_arg9 : FVec F S8x1 .f32) (main_v33 : IVec S_ 1) : IVec S_ 1 :=
  let main_v34 : FVec F S8x64 .f32 := Host.absf main_arg7
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8x1x64 .f32 := Host.absf main_arg8
  let main_cst_14 : FVec F S_ .f32 := constant S_ .f32 0x7F800000#32
  let main_v40 : FVec F S8x1x64 .f32 := broadcastInDim S8x1x64 ![] bcast_S_S8x1x64 main_cst_14
  let main_v41 : IVec S8x1x64 1 := cmpf .olt main_v39 main_v40
  let main_c_15 : IVec S_ 1 := constantI S_ 1 1#1
  let main_v42 : IVec S_ 1 := (fun x v => Host.reduce IntOp.andi x v reducesTo_S8x1x64_S_d0_1_2 h_S_) main_v41 main_c_15
  let main_v43 : IVec S_ 1 := andi main_v38 main_v42
  let main_v44 : FVec F S8x1 .f32 := Host.absf main_arg9
  let main_cst_16 : FVec F S_ .f32 := constant S_ .f32 0x7F800000#32
  let main_v45 : FVec F S8x1 .f32 := broadcastInDim S8x1 ![] bcast_S_S8x1 main_cst_16
  let main_v46 : IVec S8x1 1 := cmpf .olt main_v44 main_v45
  let main_c_17 : IVec S_ 1 := constantI S_ 1 1#1
  let main_v47 : IVec S_ 1 := (fun x v => Host.reduce IntOp.andi x v reducesTo_S8x1_S_d0_1 h_S_) main_v46 main_c_17
  let main_v48 : IVec S_ 1 := andi main_v43 main_v47
  main_v48

def fn_part1 {F : FTy → Type} [FloatOps F] (main_arg4 : FVec F S8x64x64 .f32) (main_arg5 : FVec F S8x64 .f32) (main_arg6 : FVec F S8x64x64 .f32) (main_arg7 : FVec F S8x64 .f32) (main_arg8 : FVec F S8x1x64 .f32) (main_arg9 : FVec F S8x1 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8x64x64 .f32 := Host.absf main_arg4
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S8x64 .f32 := Host.absf main_arg5
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  let main_v29 : FVec F S8x64x64 .f32 := Host.absf main_arg6
  let main_cst_10 : FVec F S_ .f32 := constant S_ .f32 0x7F800000#32
  let main_v30 : FVec F S8x64x64 .f32 := broadcastInDim S8x64x64 ![] bcast_S_S8x64x64 main_cst_10
  let main_v31 : IVec S8x64x64 1 := cmpf .olt main_v29 main_v30
  let main_c_11 : IVec S_ 1 := constantI S_ 1 1#1
  let main_v32 : IVec S_ 1 := (fun x v => Host.reduce IntOp.andi x v reducesTo_S8x64x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S131072x8 .f32) (main_arg1 : FVec F S131072x8 .f32) (main_arg2 : FVec F S8x64x9 .f32) (main_arg3 : FVec F S8x64 .f32) (main_arg4 : FVec F S8x64x64 .f32) (main_arg5 : FVec F S8x64 .f32) (main_arg6 : FVec F S8x64x64 .f32) (main_arg7 : FVec F S8x64 .f32) (main_arg8 : FVec F S8x1x64 .f32) (main_arg9 : FVec F S8x1 .f32) : IVec S_ 1 :=
  let main_v0 : FVec F S131072x8 .f32 := Host.absf main_arg0
  let main_cst : FVec F S_ .f32 := constant S_ .f32 0x7F800000#32
  let main_v1 : FVec F S131072x8 .f32 := broadcastInDim S131072x8 ![] bcast_S_S131072x8 main_cst
  let main_v2 : IVec S131072x8 1 := cmpf .olt main_v0 main_v1
  let main_c : IVec S_ 1 := constantI S_ 1 1#1
  let main_v3 : IVec S_ 1 := (fun x v => Host.reduce IntOp.andi x v reducesTo_S131072x8_S_d0_1 h_S_) main_v2 main_c
  let main_v4 : FVec F S131072x8 .f32 := Host.absf main_arg1
  let main_cst_0 : FVec F S_ .f32 := constant S_ .f32 0x7F800000#32
  let main_v5 : FVec F S131072x8 .f32 := broadcastInDim S131072x8 ![] bcast_S_S131072x8 main_cst_0
  let main_v6 : IVec S131072x8 1 := cmpf .olt main_v4 main_v5
  let main_c_1 : IVec S_ 1 := constantI S_ 1 1#1
  let main_v7 : IVec S_ 1 := (fun x v => Host.reduce IntOp.andi x v reducesTo_S131072x8_S_d0_1 h_S_) main_v6 main_c_1
  let main_v8 : IVec S_ 1 := andi main_v3 main_v7
  let main_v9 : FVec F S8x64x9 .f32 := Host.absf main_arg2
  let main_cst_2 : FVec F S_ .f32 := constant S_ .f32 0x7F800000#32
  let main_v10 : FVec F S8x64x9 .f32 := broadcastInDim S8x64x9 ![] bcast_S_S8x64x9 main_cst_2
  let main_v11 : IVec S8x64x9 1 := cmpf .olt main_v9 main_v10
  let main_c_3 : IVec S_ 1 := constantI S_ 1 1#1
  let main_v12 : IVec S_ 1 := (fun x v => Host.reduce IntOp.andi x v reducesTo_S8x64x9_S_d0_1_2 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg4 main_arg5 main_arg6 main_arg7 main_arg8 main_arg9 main_v13 main_v16
-- ==== Kernel.lean ====
abbrev S131072x8 : Shape := ⟨2, ![131072, 8]⟩
abbrev S8x64x9 : Shape := ⟨3, ![8, 64, 9]⟩
abbrev S8x64 : Shape := ⟨2, ![8, 64]⟩
abbrev S8x64x64 : Shape := ⟨3, ![8, 64, 64]⟩
abbrev S8x1x64 : Shape := ⟨3, ![8, 1, 64]⟩
abbrev S8x1 : Shape := ⟨2, ![8, 1]⟩
abbrev S8x131072 : Shape := ⟨2, ![8, 131072]⟩
abbrev S8x1024 : Shape := ⟨2, ![8, 1024]⟩
abbrev S1x1024 : Shape := ⟨2, ![1, 1024]⟩
abbrev S1024 : Shape := ⟨1, ![1024]⟩
abbrev S9x1024 : Shape := ⟨2, ![9, 1024]⟩
abbrev S1x64x9 : Shape := ⟨3, ![1, 64, 9]⟩
abbrev S64x9 : Shape := ⟨2, ![64, 9]⟩
abbrev S1x64 : Shape := ⟨2, ![1, 64]⟩
abbrev S64 : Shape := ⟨1, ![64]⟩
abbrev S64x1024 : Shape := ⟨2, ![64, 1024]⟩
abbrev S64x1 : Shape := ⟨2, ![64, 1]⟩
abbrev S1x64x64 : Shape := ⟨3, ![1, 64, 64]⟩
abbrev S64x64 : Shape := ⟨2, ![64, 64]⟩
abbrev S1x1 : Shape := ⟨2, ![1, 1]⟩
abbrev S1 : Shape := ⟨1, ![1]⟩
abbrev S131072x1x8 : Shape := ⟨3, ![131072, 1, 8]⟩
abbrev S_ : Shape := ⟨0, ![]⟩

abbrev nBuf : Space → Nat
  | .hbm => 21
  | .vmem => 16
  | .smem => 0
  | _ => 0

abbrev bufTy : (tb : Table) → Fin (tcTables nBuf tb) → BufTy
  | .hbm, ⟨0, _⟩ => ⟨S131072x8, .f32⟩
  | .hbm, ⟨1, _⟩ => ⟨S131072x8, .f32⟩
  | .hbm, ⟨2, _⟩ => ⟨S8x64x9, .f32⟩
  | .hbm, ⟨3, _⟩ => ⟨S8x64, .f32⟩
  | .hbm, ⟨4, _⟩ => ⟨S8x64x64, .f32⟩
  | .hbm, ⟨5, _⟩ => ⟨S8x64, .f32⟩
  | .hbm, ⟨6, _⟩ => ⟨S8x64x64, .f32⟩
  | .hbm, ⟨7, _⟩ => ⟨S8x64, .f32⟩
  | .hbm, ⟨8, _⟩ => ⟨S8x1x64, .f32⟩
  | .hbm, ⟨9, _⟩ => ⟨S8x1, .f32⟩
  | .hbm, ⟨10, _⟩ => ⟨S8x131072, .f32⟩
  | .hbm, ⟨11, _⟩ => ⟨S8x131072, .f32⟩
  | .hbm, ⟨12, _⟩ => ⟨S8x64, .f32⟩
  | .hbm, ⟨13, _⟩ => ⟨S8x131072, .f32⟩
  | .hbm, ⟨14, _⟩ => ⟨S8x131072, .f32⟩
  | .hbm, ⟨15, _⟩ => ⟨S131072x8, .f32⟩
  | .hbm, ⟨16, _⟩ => ⟨S131072x1x8, .f32⟩
  | .hbm, ⟨17, _⟩ => ⟨S8x131072, .f32⟩
  | .hbm, ⟨18, _⟩ => ⟨S8x131072, .f32⟩
  | .hbm, ⟨19, _⟩ => ⟨S_, .f32⟩
  | .hbm, ⟨20, _⟩ => ⟨S_, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x64x9, .f32⟩
  | .local _ .vmem, ⟨5, _⟩ => ⟨S8x64, .f32⟩
  | .local _ .vmem, ⟨6, _⟩ => ⟨S8x64x64, .f32⟩
  | .local _ .vmem, ⟨7, _⟩ => ⟨S8x64, .f32⟩
  | .local _ .vmem, ⟨8, _⟩ => ⟨S8x64x64, .f32⟩
  | .local _ .vmem, ⟨9, _⟩ => ⟨S8x64, .f32⟩
  | .local _ .vmem, ⟨10, _⟩ => ⟨S8x64, .f32⟩
  | .local _ .vmem, ⟨11, _⟩ => ⟨S8x1, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S131072x8_S8x131072_1_0 : S131072x8.Transposes [1, 0] S8x131072
  shapeCasts_S8x1x64_S8x64 : S8x1x64.ShapeCasts S8x64
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  shapeCasts_S1024_S1x1024 : S1024.ShapeCasts S1x1024
  concatenates_S8x1024_S1x1024_S9x1024_d0 : Shape.Concatenates [S8x1024, S1x1024] S9x1024 0
  inb_S8x64x9_S1x64x9_0_0_0 : ∀ a, (![0, 0, 0] : Fin 3 → Nat) a + S1x64x9.size a ≤ S8x64x9.size a
  h_S1x64x9 : 0 < S1x64x9.numel
  shapeCasts_S1x64x9_S64x9 : S1x64x9.ShapeCasts S64x9
  inb_S8x64_S1x64_0_0 : ∀ a, (![0, 0] : Fin 2 → Nat) a + S1x64.size a ≤ S8x64.size a
  h_S1x64 : 0 < S1x64.numel
  shapeCasts_S1x64_S64 : S1x64.ShapeCasts S64
  shapeCasts_S64_S64x1 : S64.ShapeCasts S64x1
  broadcasts_S64x1_S64x1024 : S64x1.Broadcasts S64x1024
  slices_S64x9_o0_8_S64x1 : S64x9.Slices ![0, 8] S64x1
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  inb_S8x1_S1x1_0_0 : ∀ a, (![0, 0] : Fin 2 → Nat) a + S1x1.size a ≤ S8x1.size a
  h_S1x1 : 0 < S1x1.numel
  shapeCasts_S1x1_S1 : S1x1.ShapeCasts S1
  reduces_S64x1024_S1024 : S64x1024.Reduces [0] S1024
  broadcasts_S1_S1024 : S1.Broadcasts S1024
  inb_S8x1024_S1x1024_1_0 : ∀ a, (![1, 0] : Fin 2 → Nat) a + S1x1024.size a ≤ S8x1024.size a
  inb_S8x64x9_S1x64x9_1_0_0 : ∀ a, (![1, 0, 0] : Fin 3 → Nat) a + S1x64x9.size a ≤ S8x64x9.size a
  inb_S8x64_S1x64_1_0 : ∀ a, (![1, 0] : Fin 2 → Nat) a + S1x64.size a ≤ S8x64.size a
  inb_S8x64x64_S1x64x64_1_0_0 : ∀ a, (![1, 0, 0] : Fin 3 → Nat) a + S1x64x64.size a ≤ S8x64x64.size a
  inb_S8x1_S1x1_1_0 : ∀ a, (![1, 0] : Fin 2 → Nat) a + S1x1.size a ≤ S8x1.size a
  inb_S8x1024_S1x1024_2_0 : ∀ a, (![2, 0] : Fin 2 → Nat) a + S1x1024.size a ≤ S8x1024.size a
  inb_S8x64x9_S1x64x9_2_0_0 : ∀ a, (![2, 0, 0] : Fin 3 → Nat) a + S1x64x9.size a ≤ S8x64x9.size a
  inb_S8x64_S1x64_2_0 : ∀ a, (![2, 0] : Fin 2 → Nat) a + S1x64.size a ≤ S8x64.size a
  inb_S8x64x64_S1x64x64_2_0_0 : ∀ a, (![2, 0, 0] : Fin 3 → Nat) a + S1x64x64.size a ≤ S8x64x64.size a
  inb_S8x1_S1x1_2_0 : ∀ a, (![2, 0] : Fin 2 → Nat) a + S1x1.size a ≤ S8x1.size a
  inb_S8x1024_S1x1024_3_0 : ∀ a, (![3, 0] : Fin 2 → Nat) a + S1x1024.size a ≤ S8x1024.size a
  inb_S8x64x9_S1x64x9_3_0_0 : ∀ a, (![3, 0, 0] : Fin 3 → Nat) a + S1x64x9.size a ≤ S8x64x9.size a
  inb_S8x64_S1x64_3_0 : ∀ a, (![3, 0] : Fin 2 → Nat) a + S1x64.size a ≤ S8x64.size a
  inb_S8x64x64_S1x64x64_3_0_0 : ∀ a, (![3, 0, 0] : Fin 3 → Nat) a + S1x64x64.size a ≤ S8x64x64.size a
  inb_S8x1_S1x1_3_0 : ∀ a, (![3, 0] : Fin 2 → Nat) a + S1x1.size a ≤ S8x1.size a
  inb_S8x1024_S1x1024_4_0 : ∀ a, (![4, 0] : Fin 2 → Nat) a + S1x1024.size a ≤ S8x1024.size a
  inb_S8x64x9_S1x64x9_4_0_0 : ∀ a, (![4, 0, 0] : Fin 3 → Nat) a + S1x64x9.size a ≤ S8x64x9.size a
  inb_S8x64_S1x64_4_0 : ∀ a, (![4, 0] : Fin 2 → Nat) a + S1x64.size a ≤ S8x64.size a
  inb_S8x64x64_S1x64x64_4_0_0 : ∀ a, (![4, 0, 0] : Fin 3 → Nat) a + S1x64x64.size a ≤ S8x64x64.size a
  inb_S8x1_S1x1_4_0 : ∀ a, (![4, 0] : Fin 2 → Nat) a + S1x1.size a ≤ S8x1.size a
  inb_S8x1024_S1x1024_5_0 : ∀ a, (![5, 0] : Fin 2 → Nat) a + S1x1024.size a ≤ S8x1024.size a
  inb_S8x64x9_S1x64x9_5_0_0 : ∀ a, (![5, 0, 0] : Fin 3 → Nat) a + S1x64x9.size a ≤ S8x64x9.size a
  inb_S8x64_S1x64_5_0 : ∀ a, (![5, 0] : Fin 2 → Nat) a + S1x64.size a ≤ S8x64.size a
  inb_S8x64x64_S1x64x64_5_0_0 : ∀ a, (![5, 0, 0] : Fin 3 → Nat) a + S1x64x64.size a ≤ S8x64x64.size a
  inb_S8x1_S1x1_5_0 : ∀ a, (![5, 0] : Fin 2 → Nat) a + S1x1.size a ≤ S8x1.size a
  inb_S8x1024_S1x1024_6_0 : ∀ a, (![6, 0] : Fin 2 → Nat) a + S1x1024.size a ≤ S8x1024.size a
  inb_S8x64x9_S1x64x9_6_0_0 : ∀ a, (![6, 0, 0] : Fin 3 → Nat) a + S1x64x9.size a ≤ S8x64x9.size a
  inb_S8x64_S1x64_6_0 : ∀ a, (![6, 0] : Fin 2 → Nat) a + S1x64.size a ≤ S8x64.size a
  inb_S8x64x64_S1x64x64_6_0_0 : ∀ a, (![6, 0, 0] : Fin 3 → Nat) a + S1x64x64.size a ≤ S8x64x64.size a
  inb_S8x1_S1x1_6_0 : ∀ a, (![6, 0] : Fin 2 → Nat) a + S1x1.size a ≤ S8x1.size a
  inb_S8x1024_S1x1024_7_0 : ∀ a, (![7, 0] : Fin 2 → Nat) a + S1x1024.size a ≤ S8x1024.size a
  inb_S8x64x9_S1x64x9_7_0_0 : ∀ a, (![7, 0, 0] : Fin 3 → Nat) a + S1x64x9.size a ≤ S8x64x9.size a
  inb_S8x64_S1x64_7_0 : ∀ a, (![7, 0] : Fin 2 → Nat) a + S1x64.size a ≤ S8x64.size a
  inb_S8x64x64_S1x64x64_7_0_0 : ∀ a, (![7, 0, 0] : Fin 3 → Nat) a + S1x64x64.size a ≤ S8x64x64.size a
  inb_S8x1_S1x1_7_0 : ∀ a, (![7, 0] : Fin 2 → Nat) a + S1x1.size a ≤ S8x1.size a
  transposes_S8x131072_S131072x8_1_0 : S8x131072.Transposes [1, 0] S131072x8
  bcast_S131072x8_S131072x1x8_0_2 : S131072x8.BroadcastsInDim S131072x1x8 (![0, 2] : Fin 2 → Fin S131072x1x8.rank)
  reducesTo_S8x131072_S_d0_1 : S8x131072.ReducesTo [0, 1] S_
  h_S_ : 0 < S_.numel
  dot_S64x9_S9x1024_S64x1024_1_0_0_1_n_n_wf : DotDims.WF S64x9 S9x1024 S64x1024 [1] [0] [0] [1] [] []
  dot_S64x64_S64x1024_S64x1024_1_0_0_1_n_n_wf : DotDims.WF S64x64 S64x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x131072.size a
  hwx0_0 : ∀ i : grid0.Coords, EltTy.bits .f32 = 32 ∨ (Rect.block (s := S8x131072) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x131072.size a
  hwx0_1 : ∀ i : grid0.Coords, EltTy.bits .f32 = 32 ∨ (Rect.block (s := S8x131072) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x9.size a ≤ S8x64x9.size a
  hwx0_2 : ∀ i : grid0.Coords, EltTy.bits .f32 = 32 ∨ (Rect.block (s := S8x64x9) S8x64x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64x64.size a ≤ S8x64x64.size a
  hwx0_4 : ∀ i : grid0.Coords, EltTy.bits .f32 = 32 ∨ (Rect.block (s := S8x64x64) S8x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x64x64.size a ≤ S8x64x64.size a
  hwx0_6 : ∀ i : grid0.Coords, EltTy.bits .f32 = 32 ∨ (Rect.block (s := S8x64x64) S8x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S8x64.size a
  hwx0_7 : ∀ i : grid0.Coords, EltTy.bits .f32 = 32 ∨ (Rect.block (s := S8x64) S8x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S8x64.size a
  hwx0_8 : ∀ i : grid0.Coords, EltTy.bits .f32 = 32 ∨ (Rect.block (s := S8x64) S8x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S8x1.size a
  hwx0_9 : ∀ i : grid0.Coords, EltTy.bits .f32 = 32 ∨ (Rect.block (s := S8x1) S8x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1024.size a ≤ S8x131072.size a
  hwx0_10 : ∀ i : grid0.Coords, EltTy.bits .f32 = 32 ∨ (Rect.block (s := S8x131072) S8x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1024.size a ≤ S8x131072.size a
  hwx0_11 : ∀ i : grid0.Coords, EltTy.bits .f32 = 32 ∨ (Rect.block (s := S8x131072) S8x1024.size (cc0_transform_11 i) (hinb0_11 i)).WholeWords (EltTy.packing .f32)

variable [Facts₀]

def dot_S64x9_S9x1024_S64x1024_1_0_0_1_n_n : DotDims S64x9 S9x1024 S64x1024 where
  lhsContracting := [1]
  rhsContracting := [0]
  lhsNonContracting := [0]
  rhsNonContracting := [1]
  lhsBatch := []
  rhsBatch := []
  wf := dot_S64x9_S9x1024_S64x1024_1_0_0_1_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S8x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S8x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x8 : Shape := ⟨2, ![131072, 8]⟩
abbrev S8x64x9 : Shape := ⟨3, ![8, 64, 9]⟩
abbrev S8x64 : Shape := ⟨2, ![8, 64]⟩
abbrev S8x64x64 : Shape := ⟨3, ![8, 64, 64]⟩
abbrev S8x1x64 : Shape := ⟨3, ![8, 1, 64]⟩
abbrev S8x1 : Shape := ⟨2, ![8, 1]⟩
abbrev S1x131072x8 : Shape := ⟨3, ![1, 131072, 8]⟩
abbrev S8x131072x8 : Shape := ⟨3, ![8, 131072, 8]⟩
abbrev S8x131072 : Shape := ⟨2, ![8, 131072]⟩
abbrev S8x131072x1 : Shape := ⟨3, ![8, 131072, 1]⟩
abbrev S8x131072x9 : Shape := ⟨3, ![8, 131072, 9]⟩
abbrev S8x131072x64 : Shape := ⟨3, ![8, 131072, 64]⟩
abbrev S_ : Shape := ⟨0, ![]⟩
abbrev S8x64x1 : Shape := ⟨3, ![8, 64, 1]⟩
abbrev S8x1x1 : Shape := ⟨3, ![8, 1, 1]⟩
abbrev S131072x1x8 : Shape := ⟨3, ![131072, 1, 8]⟩

abbrev nBuf : Space → Nat
  | .hbm => 94
  | .vmem => 0
  | .smem => 0
  | _ => 0

abbrev bufTy : (tb : Table) → Fin (tcTables nBuf tb) → BufTy
  | .hbm, ⟨0, _⟩ => ⟨S131072x8, .f32⟩
  | .hbm, ⟨1, _⟩ => ⟨S131072x8, .f32⟩
  | .hbm, ⟨2, _⟩ => ⟨S8x64x9, .f32⟩
  | .hbm, ⟨3, _⟩ => ⟨S8x64, .f32⟩
  | .hbm, ⟨4, _⟩ => ⟨S8x64x64, .f32⟩
  | .hbm, ⟨5, _⟩ => ⟨S8x64, .f32⟩
  | .hbm, ⟨6, _⟩ => ⟨S8x64x64, .f32⟩
  | .hbm, ⟨7, _⟩ => ⟨S8x64, .f32⟩
  | .hbm, ⟨8, _⟩ => ⟨S8x1x64, .f32⟩
  | .hbm, ⟨9, _⟩ => ⟨S8x1, .f32⟩
  | .hbm, ⟨10, _⟩ => ⟨S1x131072x8, .f32⟩
  | .hbm, ⟨11, _⟩ => ⟨S8x131072x8, .f32⟩
  | .hbm, ⟨12, _⟩ => ⟨S8x131072, .f32⟩
  | .hbm, ⟨13, _⟩ => ⟨S8x131072x1, .f32⟩
  | .hbm, ⟨14, _⟩ => ⟨S8x131072x9, .f32⟩
  | .hbm, ⟨15, _⟩ => ⟨S8x131072x64, .f32⟩
  | .hbm, ⟨16, _⟩ => ⟨S8x1x64, .f32⟩
  | .hbm, ⟨17, _⟩ => ⟨S8x131072x64, .f32⟩
  | .hbm, ⟨18, _⟩ => ⟨S8x131072x64, .f32⟩
  | .hbm, ⟨19, _⟩ => ⟨S_, .f32⟩
  | .hbm, ⟨20, _⟩ => ⟨S8x131072x64, .f32⟩
  | .hbm, ⟨21, _⟩ => ⟨S8x131072x64, .i1⟩
  | .hbm, ⟨22, _⟩ => ⟨S_, .f32⟩
  | .hbm, ⟨23, _⟩ => ⟨S8x131072x64, .f32⟩
  | .hbm, ⟨24, _⟩ => ⟨S8x131072x64, .f32⟩
  | .hbm, ⟨25, _⟩ => ⟨S8x131072x64, .f32⟩
  | .hbm, ⟨26, _⟩ => ⟨S8x64x1, .f32⟩
  | .hbm, ⟨27, _⟩ => ⟨S8x64, .f32⟩
  | .hbm, ⟨28, _⟩ => ⟨S8x1x64, .f32⟩
  | .hbm, ⟨29, _⟩ => ⟨S_, .f32⟩
  | .hbm, ⟨30, _⟩ => ⟨S8x131072x64, .f32⟩
  | .hbm, ⟨31, _⟩ => ⟨S8x131072x64, .i1⟩
  | .hbm, ⟨32, _⟩ => ⟨S_, .f32⟩
  | .hbm, ⟨33, _⟩ => ⟨S_, .f32⟩
  | .hbm, ⟨34, _⟩ => ⟨S8x131072x64, .f32⟩
  | .hbm, ⟨35, _⟩ => ⟨S8x131072x64, .f32⟩
  | .hbm, ⟨36, _⟩ => ⟨S8x131072x64, .f32⟩
  | .hbm, ⟨37, _⟩ => ⟨S8x131072x64, .f32⟩
  | .hbm, ⟨38, _⟩ => ⟨S8x131072x64, .f32⟩
  | .hbm, ⟨39, _⟩ => ⟨S8x131072x64, .f32⟩
  | .hbm, ⟨40, _⟩ => ⟨S8x1x64, .f32⟩
  | .hbm, ⟨41, _⟩ => ⟨S8x131072x64, .f32⟩
  | .hbm, ⟨42, _⟩ => ⟨S8x131072x64, .f32⟩
  | .hbm, ⟨43, _⟩ => ⟨S8x131072x64, .f32⟩
  | .hbm, ⟨44, _⟩ => ⟨S_, .f32⟩
  | .hbm, ⟨45, _⟩ => ⟨S8x131072x64, .f32⟩
  | .hbm, ⟨46, _⟩ => ⟨S8x131072x64, .i1⟩
  | .hbm, ⟨47, _⟩ => ⟨S_, .f32⟩
  | .hbm, ⟨48, _⟩ => ⟨S_, .f32⟩
  | .hbm, ⟨49, _⟩ => ⟨S8x131072x64, .f32⟩
  | .hbm, ⟨50, _⟩ => ⟨S8x131072x64, .f32⟩
  | .hbm, ⟨51, _⟩ => ⟨S8x131072x64, .f32⟩
  | .hbm, ⟨52, _⟩ => ⟨S8x131072x64, .f32⟩
  | .hbm, ⟨53, _⟩ => ⟨S_, .f32⟩
  | .hbm, ⟨54, _⟩ => ⟨S8x131072x64, .f32⟩
  | .hbm, ⟨55, _⟩ => ⟨S8x131072x64, .i1⟩
  | .hbm, ⟨56, _⟩ => ⟨S_, .f32⟩
  | .hbm, ⟨57, _⟩ => ⟨S8x131072x64, .f32⟩
  | .hbm, ⟨58, _⟩ => ⟨S8x131072x64, .f32⟩
  | .hbm, ⟨59, _⟩ => ⟨S8x131072x64, .f32⟩
  | .hbm, ⟨60, _⟩ => ⟨S8x131072x64, .f32⟩
  | .hbm, ⟨61, _⟩ => ⟨S8x1x64, .f32⟩
  | .hbm, ⟨62, _⟩ => ⟨S8x131072x64, .f32⟩
  | .hbm, ⟨63, _⟩ => ⟨S8x131072x64, .f32⟩
  | .hbm, ⟨64, _⟩ => ⟨S8x131072x64, .f32⟩
  | .hbm, ⟨65, _⟩ => ⟨S_, .f32⟩
  | .hbm, ⟨66, _⟩ => ⟨S8x131072x64, .f32⟩
  | .hbm, ⟨67, _⟩ => ⟨S8x131072x64, .i1⟩
  | .hbm, ⟨68, _⟩ => ⟨S_, .f32⟩
  | .hbm, ⟨69, _⟩ => ⟨S_, .f32⟩
  | .hbm, ⟨70, _⟩ => ⟨S8x131072x64, .f32⟩
  | .hbm, ⟨71, _⟩ => ⟨S8x131072x64, .f32⟩
  | .hbm, ⟨72, _⟩ => ⟨S8x131072x64, .f32⟩
  | .hbm, ⟨73, _⟩ => ⟨S8x131072x64, .f32⟩
  | .hbm, ⟨74, _⟩ => ⟨S_, .f32⟩
  | .hbm, ⟨75, _⟩ => ⟨S8x131072x64, .f32⟩
  | .hbm, ⟨76, _⟩ => ⟨S8x131072x64, .i1⟩
  | .hbm, ⟨77, _⟩ => ⟨S_, .f32⟩
  | .hbm, ⟨78, _⟩ => ⟨S8x131072x64, .f32⟩
  | .hbm, ⟨79, _⟩ => ⟨S8x131072x64, .f32⟩
  | .hbm, ⟨80, _⟩ => ⟨S8x131072x64, .f32⟩
  | .hbm, ⟨81, _⟩ => ⟨S8x131072x1, .f32⟩
  | .hbm, ⟨82, _⟩ => ⟨S8x1x1, .f32⟩
  | .hbm, ⟨83, _⟩ => ⟨S8x131072x1, .f32⟩
  | .hbm, ⟨84, _⟩ => ⟨S8x131072x1, .f32⟩
  | .hbm, ⟨85, _⟩ => ⟨S8x131072x1, .f32⟩
  | .hbm, ⟨86, _⟩ => ⟨S8x131072, .f32⟩
  | .hbm, ⟨87, _⟩ => ⟨S8x131072, .f32⟩
  | .hbm, ⟨88, _⟩ => ⟨S131072x8, .f32⟩
  | .hbm, ⟨89, _⟩ => ⟨S131072x1x8, .f32⟩
  | .hbm, ⟨90, _⟩ => ⟨S8x131072, .f32⟩
  | .hbm, ⟨91, _⟩ => ⟨S8x131072, .f32⟩
  | .hbm, ⟨92, _⟩ => ⟨S_, .f32⟩
  | .hbm, ⟨93, _⟩ => ⟨S_, .f32⟩
  | _, _ => ⟨S131072x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_cst_11 : Ref sig .tc := ⟨.hbm, 69, rfl⟩
abbrev main_call4_v0 : Ref sig .tc := ⟨.hbm, 70, rfl⟩
abbrev main_call4_v1 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_cst_13 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  bcast_S131072x8_S1x131072x8_1_2 : S131072x8.BroadcastsInDim S1x131072x8 (![1, 2] : Fin 2 → Fin S1x131072x8.rank)
  bcast_S1x131072x8_S8x131072x8_0_1_2 : S1x131072x8.BroadcastsInDim S8x131072x8 (![0, 1, 2] : Fin 3 → Fin S8x131072x8.rank)
  transposes_S131072x8_S8x131072_1_0 : S131072x8.Transposes [1, 0] S8x131072
  bcast_S8x131072_S8x131072x1_0_1 : S8x131072.BroadcastsInDim S8x131072x1 (![0, 1] : Fin 2 → Fin S8x131072x1.rank)
  concatenates_S8x131072x8_S8x131072x1_S8x131072x9_d2 : Shape.Concatenates [S8x131072x8, S8x131072x1] S8x131072x9 2
  bcast_S8x64_S8x1x64_0_2 : S8x64.BroadcastsInDim S8x1x64 (![0, 2] : Fin 2 → Fin S8x1x64.rank)
  bcast_S8x1x64_S8x131072x64_0_1_2 : S8x1x64.BroadcastsInDim S8x131072x64 (![0, 1, 2] : Fin 3 → Fin S8x131072x64.rank)
  bcast_S_S8x131072x64 : S_.BroadcastsInDim S8x131072x64 (![] : Fin 0 → Fin S8x131072x64.rank)
  slices_S8x64x9_S8x64x1_0_0_8 : S8x64x9.Slices ![0, 0, 8] S8x64x1
  shapeCasts_S8x64x1_S8x64 : S8x64x1.ShapeCasts S8x64
  bcast_S8x1_S8x1x1_0_2 : S8x1.BroadcastsInDim S8x1x1 (![0, 2] : Fin 2 → Fin S8x1x1.rank)
  bcast_S8x1x1_S8x131072x1_0_1_2 : S8x1x1.BroadcastsInDim S8x131072x1 (![0, 1, 2] : Fin 3 → Fin S8x131072x1.rank)
  shapeCasts_S8x131072x1_S8x131072 : S8x131072x1.ShapeCasts S8x131072
  transposes_S8x131072_S131072x8_1_0 : S8x131072.Transposes [1, 0] S131072x8
  bcast_S131072x8_S131072x1x8_0_2 : S131072x8.BroadcastsInDim S131072x1x8 (![0, 2] : Fin 2 → Fin S131072x1x8.rank)
  reducesTo_S8x131072_S_d0_1 : S8x131072.ReducesTo [0, 1] S_
  h_S_ : 0 < S_.numel
  dot_S8x131072x9_S8x64x9_S8x131072x64_2_2_1_1_0_0_wf : DotDims.WF S8x131072x9 S8x64x9 S8x131072x64 [2] [2] [1] [1] [0] [0]
  dot_S8x131072x64_S8x64x64_S8x131072x64_2_2_1_1_0_0_wf : DotDims.WF S8x131072x64 S8x64x64 S8x131072x64 [2] [2] [1] [1] [0] [0]
  dot_S8x131072x64_S8x1x64_S8x131072x1_2_2_1_1_0_0_wf : DotDims.WF S8x131072x64 S8x1x64 S8x131072x1 [2] [2] [1] [1] [0] [0]

variable [Facts₀]

def dot_S8x131072x9_S8x64x9_S8x131072x64_2_2_1_1_0_0 : DotDims S8x131072x9 S8x64x9 S8x131072x64 where
  lhsContracting := [2]
  rhsContracting := [2]
  lhsNonContracting := [1]
  rhsNonContracting := [1]
  lhsBatch := [0]
  rhsBatch := [0]
  wf := dot_S8x131072x9_S8x64x9_S8x131072x64_2_2_1_1_0_0_wf
def dot_S8x131072x64_S8x64x64_S8x131072x64_2_2_1_1_0_0 : DotDims S8x131072x64 S8x64x64 S8x131072x64 where
  lhsContracting := [2]
  rhsContracting := [2]
  lhsNonContracting := [1]
  rhsNonContracting := [1]
  lhsBatch := [0]
  rhsBatch := [0]
  wf := dot_S8x131072x64_S8x64x64_S8x131072x64_2_2_1_1_0_0_wf
def dot_S8x131072x64_S8x1x64_S8x131072x1_2_2_1_1_0_0 : DotDims S8x131072x64 S8x1x64 S8x131072x1 where
  lhsContracting := [2]
  rhsContracting := [2]
  lhsNonContracting := [1]
  rhsNonContracting := [1]
  lhsBatch := [0]
  rhsBatch := [0]
  wf := dot_S8x131072x64_S8x1x64_S8x131072x1_2_2_1_1_0_0_wf

class Facts : Prop extends Facts₀ where

variable [Facts]
-- ==== Proof.KernelRow.lean ====
/-
  One latent dimension's work inside a grid point, as whole-vector functions of the slabs the body loads for it.

  For dimension `d` the body reads the shared block `z` (8 × 1024: the eight shared input coordinates of 1024 batch
  rows, one row per lane), row `d` of the private-input block (`xr`, 1 × 1024) and slab `d` of every weight and bias, and
  writes two rows of 1024 lanes: the network's output and its derivative along the private coordinate.  The eight
  unrolled copies of this computation in the body differ only in which row and slab they load, so it is written here
  once, as named stages — the layer's affine map (a matrix product into a zero accumulator plus a bias column spread
  over the lanes), the rectifier and its derivative (two selects on the same comparison), the output layer's weighted
  lane sum — in exactly the order of operations the body performs them.  Everything is generic in the float instance.
-/
import proofs.«429064_j39075612459501_4_alg».proof.Proof.Gen.KernelIdeal

noncomputable section

namespace Cert.KernelIdeal.Row

open Idealize.ShloMosaic Idealize.SL.Sem Cert.KernelIdeal Cert.KernelIdeal.Gen

variable {F : FTy → Type} [FloatOps F]

/-- The rectifier on a 64 × 1024 slab: the entry where it is ≥ 0, the slope times the entry elsewhere. -/
def actV (p : FVec F S64x1024 .f32) : FVec F S64x1024 .f32 :=
  select (cmpf .oge p (broadcast S64x1024 (Scalar.ofBits .f32 0x00000000#32))) p
    (mulf (broadcast S64x1024 (Scalar.ofBits .f32 0x3E4CCCCD#32)) p)

/-- The rectifier's derivative on a slab: one where the entry is ≥ 0, the slope elsewhere. -/
def dactV (p : FVec F S64x1024 .f32) : FVec F S64x1024 .f32 :=
  select (cmpf .oge p (broadcast S64x1024 (Scalar.ofBits .f32 0x00000000#32)))
    (broadcast S64x1024 (Scalar.ofBits .f32 0x3F800000#32)) (broadcast S64x1024 (Scalar.ofBits .f32 0x3E4CCCCD#32))

/-- A bias slab (1 × 64) as a column spread over the 1024 lanes. -/
def biasV (b : Vec F S1x64 .f32) : FVec F S64x1024 .f32 :=
  broadcastTo S64x1024 (shapeCast S64x1 (shapeCast S64 b shapeCasts_S1x64_S64) shapeCasts_S64_S64x1) broadcasts_S64x1_S64x1024

/-- The nine input rows of the dimension: the shared block with the private row appended. -/
def inpV (z : Vec F S8x1024 .f32) (xr : Vec F S1x1024 .f32) : FVec F S9x1024 .f32 :=
  concatenate S9x1024 0 [⟨S8x1024, shapeCast S8x1024 z shapeCasts_S8x1024_S8x1024⟩,
    ⟨S1x1024, shapeCast S1x1024 (shapeCast S1024 xr shapeCasts_S1x1024_S1024) shapeCasts_S1024_S1x1024⟩]
    concatenates_S8x1024_S1x1024_S9x1024_d0

/-- The first layer's weight slab as a 64 × 9 matrix. -/
def w0M (w0 : Vec F S1x64x9 .f32) : FVec F S64x9 .f32 := shapeCast S64x9 w0 shapeCasts_S1x64x9_S64x9

/-- A hidden layer's weight slab as a 64 × 64 matrix. -/
def wM (w : Vec F S1x64x64 .f32) : FVec F S64x64 .f32 := shapeCast S64x64 w shapeCasts_S1x64x64_S64x64

/-- First layer's pre-activation. -/
def pre0V (z : Vec F S8x1024 .f32) (xr : Vec F S1x1024 .f32) (w0 : Vec F S1x64x9 .f32) (b0 : Vec F S1x64 .f32) :
    FVec F S64x1024 .f32 :=
  addf (matmul dot_S64x9_S9x1024_S64x1024_1_0_0_1_n_n (some .fp32) (w0M w0) (inpV z xr)
    (constant S64x1024 .f32 0x00000000#32)) (biasV b0)

/-- First layer's tangent: the ninth weight column, spread over the lanes, times the rectifier's derivative. -/
def tan0V (w0 : Vec F S1x64x9 .f32) (p0 : FVec F S64x1024 .f32) : FVec F S64x1024 .f32 :=
  mulf (broadcastTo S64x1024 (extractStridedSlice S64x1 ![0, 8] (w0M w0) slices_S64x9_o0_8_S64x1)
    broadcasts_S64x1_S64x1024) (dactV p0)

/-- A hidden layer's matrix product into a zero accumulator. -/
def mmV (w : Vec F S1x64x64 .f32) (a : FVec F S64x1024 .f32) : FVec F S64x1024 .f32 :=
  matmul dot_S64x64_S64x1024_S64x1024_1_0_0_1_n_n (some .fp32) (wM w) a (constant S64x1024 .f32 0x00000000#32)

/-- The output layer's weighted sum over the 64 hidden units, lane by lane. -/
def outSumV (wo : Vec F S1x64 .f32) (a : FVec F S64x1024 .f32) : FVec F S1024 .f32 :=
  multiReduction .add [0] S1024
    (mulf (broadcastTo S64x1024 (shapeCast S64x1 (shapeCast S64 wo shapeCasts_S1x64_S64) shapeCasts_S64_S64x1)
      broadcasts_S64x1_S64x1024) a) 0x00000000#32 reduces_S64x1024_S1024 (.inl rfl) rfl

section Stages

variable (z : Vec F S8x1024 .f32) (xr : Vec F S1x1024 .f32) (w0 : Vec F S1x64x9 .f32) (b0 : Vec F S1x64 .f32)
  (w1 : Vec F S1x64x64 .f32) (b1 : Vec F S1x64 .f32) (w2 : Vec F S1x64x64 .f32) (b2 : Vec F S1x64 .f32)
  (wo : Vec F S1x64 .f32) (bo : Vec F S1x1 .f32)

/-- Second layer's pre-activation. -/
def pre1V : FVec F S64x1024 .f32 := addf (mmV w1 (actV (pre0V z xr w0 b0))) (biasV b1)
/-- Second layer's tangent. -/
def tan1V : FVec F S64x1024 .f32 :=
  mulf (mmV w1 (tan0V w0 (pre0V z xr w0 b0))) (dactV (pre1V z xr w0 b0 w1 b1))
/-- Third layer's pre-activation. -/
def pre2V : FVec F S64x1024 .f32 := addf (mmV w2 (actV (pre1V z xr w0 b0 w1 b1))) (biasV b2)
/-- Third layer's tangent. -/
def tan2V : FVec F S64x1024 .f32 :=
  mulf (mmV w2 (tan1V z xr w0 b0 w1 b1)) (dactV (pre2V z xr w0 b0 w1 b1 w2 b2))

/-- The output row: the weighted lane sum of the last activations plus the output bias, as a 1 × 1024 row. -/
def rowRes : FVec F S1x1024 .f32 :=
  shapeCast S1x1024 (addf (outSumV wo (actV (pre2V z xr w0 b0 w1 b1 w2 b2)))
    (broadcastTo S1024 (shapeCast S1 bo shapeCasts_S1x1_S1) broadcasts_S1_S1024)) shapeCasts_S1024_S1x1024

/-- The derivative row: the weighted lane sum of the last tangents, as a 1 × 1024 row. -/
def rowDout : FVec F S1x1024 .f32 :=
  shapeCast S1x1024 (outSumV wo (tan2V z xr w0 b0 w1 b1 w2 b2)) shapeCasts_S1024_S1x1024

end Stages

end Cert.KernelIdeal.Row

end
-- ==== Proof.MlpSpec.lean ====
/-
  The mathematics both programs compute, for ONE latent dimension and ONE batch row, over the extended reals.

  A three-hidden-layer perceptron with leaky rectifiers, evaluated together with its derivative along the last
  input coordinate (forward-mode tangent).  With input `x : Fin 9 → EReal` (eight shared coordinates and one private
  one), weights `w0 : 64×9`, `w1, w2 : 64×64`, `wo : 64` and biases `c0, c1, c2 : 64`, `co`:

    pre0 h = Σ_k x k · w0 h k + c0 h          tan0 h = w0 h 8 · φ'(pre0 h)
    pre1 g = Σ_h φ(pre0 h) · w1 g h + c1 g    tan1 g = (Σ_h tan0 h · w1 g h) · φ'(pre1 g)
    pre2 g = Σ_h φ(pre1 h) · w2 g h + c2 g    tan2 g = (Σ_h tan1 h · w2 g h) · φ'(pre2 g)
    res    = Σ_h φ(pre2 h) · wo h + co        dout   = Σ_h tan2 h · wo h

  where φ x = x if x ≥ 0 else s·x and φ' x = 1 if x ≥ 0 else s, with s the binary32 value nearest 0.2 (the same
  word on both sides, never evaluated).  Products are written activation-first, as the reference contracts them; the
  kernel multiplies weight-first, and `mul_comm` under the sum (the `_comm` lemmas) joins the two.  Only
  commutativity of the product is used: no law that fails at an infinity.
-/
import Idealize.ShloMosaic.PureOps.Ideal
import Idealize.ShloMosaic.Lib.ValueIdx

noncomputable section

open scoped BigOperators

namespace Cert.Mlp

open Idealize.ShloMosaic

/-- The comparison "x ≥ 0" as the one-bit word both programs compute. -/
def nonneg (x : EReal) : BitVec 1 :=
  FloatOps.cmpf (F := Ideal) (φ := .f32) .oge x (FloatOps.ofBits (F := Ideal) .f32 0x00000000#32)

/-- The leaky rectifier: `x` where `x ≥ 0`, the slope times `x` elsewhere. -/
def lrelu (x : EReal) : EReal :=
  Scalar.select (nonneg x) x ((FloatOps.ofBits (F := Ideal) .f32 0x3E4CCCCD#32 : EReal) * x)

/-- Its derivative: one where `x ≥ 0`, the slope elsewhere. -/
def dlrelu (x : EReal) : EReal :=
  Scalar.select (nonneg x) (FloatOps.ofBits (F := Ideal) .f32 0x3F800000#32 : EReal)
    (FloatOps.ofBits (F := Ideal) .f32 0x3E4CCCCD#32 : EReal)

section Net

variable (x : Fin 9 → EReal) (w0 : Fin 64 → Fin 9 → EReal) (c0 : Fin 64 → EReal)
  (w1 : Fin 64 → Fin 64 → EReal) (c1 : Fin 64 → EReal) (w2 : Fin 64 → Fin 64 → EReal) (c2 : Fin 64 → EReal)
  (wo : Fin 64 → EReal) (co : EReal)

/-- First layer's pre-activation. -/
def pre0 (h : Fin 64) : EReal := (∑ k : Fin 9, x k * w0 h k) + c0 h
/-- First layer's tangent along the private input coordinate (the ninth). -/
def tan0 (h : Fin 64) : EReal := w0 h 8 * dlrelu (pre0 x w0 c0 h)
/-- Second layer's pre-activation. -/
def pre1 (g : Fin 64) : EReal := (∑ h : Fin 64, lrelu (pre0 x w0 c0 h) * w1 g h) + c1 g
/-- Second layer's tangent. -/
def tan1 (g : Fin 64) : EReal := (∑ h : Fin 64, tan0 x w0 c0 h * w1 g h) * dlrelu (pre1 x w0 c0 w1 c1 g)
/-- Third layer's pre-activation. -/
def pre2 (g : Fin 64) : EReal := (∑ h : Fin 64, lrelu (pre1 x w0 c0 w1 c1 h) * w2 g h) + c2 g
/-- Third layer's tangent. -/
def tan2 (g : Fin 64) : EReal :=
  (∑ h : Fin 64, tan1 x w0 c0 w1 c1 h * w2 g h) * dlrelu (pre2 x w0 c0 w1 c1 w2 c2 g)
/-- The network's scalar output. -/
def res : EReal := (∑ h : Fin 64, lrelu (pre2 x w0 c0 w1 c1 w2 c2 h) * wo h) + co
/-- Its derivative along the private input coordinate. -/
def dout : EReal := ∑ h : Fin 64, tan2 x w0 c0 w1 c1 w2 c2 h * wo h

/-- Weight-first forms: the same sums with each product commuted. -/
theorem pre0_comm (h : Fin 64) : pre0 x w0 c0 h = (∑ k : Fin 9, w0 h k * x k) + c0 h := by
  unfold pre0; exact congrArg (· + c0 h) (Finset.sum_congr rfl fun k _ => mul_comm _ _)
theorem pre1_comm (g : Fin 64) :
    pre1 x w0 c0 w1 c1 g = (∑ h : Fin 64, w1 g h * lrelu (pre0 x w0 c0 h)) + c1 g := by
  unfold pre1; exact congrArg (· + c1 g) (Finset.sum_congr rfl fun k _ => mul_comm _ _)
theorem tan1_comm (g : Fin 64) :
    tan1 x w0 c0 w1 c1 g = (∑ h : Fin 64, w1 g h * tan0 x w0 c0 h) * dlrelu (pre1 x w0 c0 w1 c1 g) := by
  unfold tan1; exact congrArg (· * dlrelu (pre1 x w0 c0 w1 c1 g)) (Finset.sum_congr rfl fun k _ => mul_comm _ _)
theorem pre2_comm (g : Fin 64) :
    pre2 x w0 c0 w1 c1 w2 c2 g = (∑ h : Fin 64, w2 g h * lrelu (pre1 x w0 c0 w1 c1 h)) + c2 g := by
  unfold pre2; exact congrArg (· + c2 g) (Finset.sum_congr rfl fun k _ => mul_comm _ _)
theorem tan2_comm (g : Fin 64) :
    tan2 x w0 c0 w1 c1 w2 c2 g
      = (∑ h : Fin 64, w2 g h * tan1 x w0 c0 w1 c1 h) * dlrelu (pre2 x w0 c0 w1 c1 w2 c2 g) := by
  unfold tan2
  exact congrArg (· * dlrelu (pre2 x w0 c0 w1 c1 w2 c2 g)) (Finset.sum_congr rfl fun k _ => mul_comm _ _)
theorem res_comm :
    res x w0 c0 w1 c1 w2 c2 wo co = (∑ h : Fin 64, wo h * lrelu (pre2 x w0 c0 w1 c1 w2 c2 h)) + co := by
  unfold res; exact congrArg (· + co) (Finset.sum_congr rfl fun k _ => mul_comm _ _)
theorem dout_comm :
    dout x w0 c0 w1 c1 w2 c2 wo = ∑ h : Fin 64, wo h * tan2 x w0 c0 w1 c1 w2 c2 h := by
  unfold dout; exact Finset.sum_congr rfl fun k _ => mul_comm _ _

end Net

/-- The nine input coordinates of dimension `d` at one batch row: eight shared ones, then the private one. -/
def inp (shared : Fin 8 → EReal) (priv : EReal) : Fin 9 → EReal :=
  fun k => if h : k.val < 8 then shared ⟨k.val, h⟩ else priv

end Cert.Mlp

end
-- ==== Proof.KernelRowValue.lean ====
/-
  One dimension's two output rows read at a lane: lane `q` of the output row is the specification's network applied to
  lane `q` of the nine input rows with the slab's weights and biases, and lane `q` of the derivative row its derivative.
-/
import proofs.«429064_j39075612459501_4_alg».proof.Proof.KernelRow
import proofs.«429064_j39075612459501_4_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.Row

open Idealize.ShloMosaic Idealize.SL.Sem Idealize.ShloMosaic.ValueIdx Cert.KernelIdeal Cert.KernelIdeal.Gen

/-! ## The pointwise stages -/

/-- The rectifier at an entry. -/
theorem actV_apply (p : FVec Ideal S64x1024 .f32) (h : Fin 64) (q : Fin 1024) :
    actV (F := Ideal) p (ix2 h q) = Cert.Mlp.lrelu (p (ix2 h q)) := rfl

/-- The rectifier's derivative at an entry. -/
theorem dactV_apply (p : FVec Ideal S64x1024 .f32) (h : Fin 64) (q : Fin 1024) :
    dactV (F := Ideal) p (ix2 h q) = Cert.Mlp.dlrelu (p (ix2 h q)) := rfl

/-! ## The layout stages -/

/-- A 64 × 1 column spread over the lanes reads its row's entry at every lane. -/
theorem spread_apply (c : FVec Ideal S64x1 .f32) (h : Fin 64) (q : Fin 1024) :
    broadcastTo S64x1024 c broadcasts_S64x1_S64x1024 (ix2 h q) = c (ix2 h (0 : Fin 1)) :=
  broadcastTo_apply c broadcasts_S64x1_S64x1024 (ix2 h q) (ix2 h (0 : Fin 1)) (fun a => by
    match a with
    | ⟨0, _⟩ => show h.val = if (64 : Nat) = 1 then 0 else h.val; rw [if_neg (by decide)]
    | ⟨1, _⟩ => show 0 = if (1 : Nat) = 1 then 0 else q.val; rw [if_pos rfl])

/-- The bias column at (h, q) is the slab's entry h. -/
theorem biasV_apply (b : Vec Ideal S1x64 .f32) (h : Fin 64) (q : Fin 1024) :
    biasV (F := Ideal) b (ix2 h q) = b (ix2 (0 : Fin 1) h) := by
  unfold biasV
  rw [spread_apply]
  refine (shapeCast_apply _ shapeCasts_S64_S64x1 (ix2 h (0 : Fin 1)) (ix1 h) ?_).trans ?_
  · rw [Shape.rowMajor_val_one, Shape.rowMajor_val_two]
    show h.val = h.val * 1 + 0
    omega
  refine shapeCast_apply _ shapeCasts_S1x64_S64 (ix1 h) (ix2 (0 : Fin 1) h) ?_
  rw [Shape.rowMajor_val_one, Shape.rowMajor_val_two]
  show 0 * 64 + h.val = h.val
  omega

/-- The first layer's weight matrix at (h, k) is the slab's entry (0, h, k). -/
theorem w0M_apply (w0 : Vec Ideal S1x64x9 .f32) (h : Fin 64) (k : Fin 9) :
    w0M (F := Ideal) w0 (ix2 h k) = w0 (ix3 (0 : Fin 1) h k) := by
  unfold w0M
  refine shapeCast_apply _ shapeCasts_S1x64x9_S64x9 (ix2 h k) (ix3 (0 : Fin 1) h k) ?_
  rw [Shape.rowMajor_val_two, Shape.rowMajor_val_three]
  show (0 * 64 + h.val) * 9 + k.val = h.val * 9 + k.val
  omega

/-- A hidden layer's weight matrix at (g, h) is the slab's entry (0, g, h). -/
theorem wM_apply (w : Vec Ideal S1x64x64 .f32) (g h : Fin 64) :
    wM (F := Ideal) w (ix2 g h) = w (ix3 (0 : Fin 1) g h) := by
  unfold wM
  refine shapeCast_apply _ shapeCasts_S1x64x64_S64x64 (ix2 g h) (ix3 (0 : Fin 1) g h) ?_
  rw [Shape.rowMajor_val_two, Shape.rowMajor_val_three]
  show (0 * 64 + g.val) * 64 + h.val = g.val * 64 + h.val
  omega

/-- The nine input rows at (k, q): a shared coordinate for k < 8, the private one for k = 8. -/
theorem inpV_apply (z : Vec Ideal S8x1024 .f32) (xr : Vec Ideal S1x1024 .f32) (k : Fin 9) (q : Fin 1024) :
    inpV (F := Ideal) z xr (ix2 k q) = Cert.Mlp.inp (fun k' => z (ix2 k' q)) (xr (ix2 (0 : Fin 1) q)) k := by
  unfold inpV Cert.Mlp.inp
  by_cases hk : k.val < 8
  · rw [dif_pos hk]
    refine (concatenate_pair_apply_left (0 : Fin S9x1024.rank) _ _ concatenates_S8x1024_S1x1024_S9x1024_d0 (ix2 k q) rfl
      (ix2 (⟨k.val, hk⟩ : Fin 8) q) (fun b => ?_)).trans ?_
    · match b with
      | ⟨0, _⟩ => rfl
      | ⟨1, _⟩ => rfl
    · rw [shapeCast_self]
  · rw [dif_neg hk]
    refine (concatenate_pair_apply_right (0 : Fin S9x1024.rank) _ _ concatenates_S8x1024_S1x1024_S9x1024_d0 (ix2 k q) rfl rfl
      (ix2 (0 : Fin 1) q) (fun b hb => ?_) ?_).trans ?_
    · match b with
      | ⟨0, _⟩ => exact absurd rfl hb
      | ⟨1, _⟩ => rfl
    · show 0 + 8 = k.val
      have := k.isLt
      omega
    · rw [shapeCast_shapeCast]

/-! ## The two matrix products: the operand indices axis by axis, then the product at an entry -/

theorem lhs_dot9_0 (i : S64x1024.Idx) (c : dot_S64x9_S9x1024_S64x1024_1_0_0_1_n_n.contr.Idx) :
    (dot_S64x9_S9x1024_S64x1024_1_0_0_1_n_n.lhsIdx i c 0).val = (i 0).val := by
  unfold DotDims.lhsIdx
  rw [dif_neg (show ¬(0 : Fin S64x9.rank) ∈ dot_S64x9_S9x1024_S64x1024_1_0_0_1_n_n.lhsBatch by decide),
    dif_pos (show (0 : Fin S64x9.rank) ∈ dot_S64x9_S9x1024_S64x1024_1_0_0_1_n_n.lhsNonContracting by decide)]
  rfl
theorem lhs_dot9_1 (i : S64x1024.Idx) (c : dot_S64x9_S9x1024_S64x1024_1_0_0_1_n_n.contr.Idx) :
    (dot_S64x9_S9x1024_S64x1024_1_0_0_1_n_n.lhsIdx i c 1).val = (c ⟨0, by decide⟩).val :=
  dot_S64x9_S9x1024_S64x1024_1_0_0_1_n_n.lhsIdx_val_of_single rfl i c
theorem rhs_dot9_0 (i : S64x1024.Idx) (c : dot_S64x9_S9x1024_S64x1024_1_0_0_1_n_n.contr.Idx) :
    (dot_S64x9_S9x1024_S64x1024_1_0_0_1_n_n.rhsIdx i c 0).val = (c ⟨0, by decide⟩).val :=
  dot_S64x9_S9x1024_S64x1024_1_0_0_1_n_n.rhsIdx_val_of_single rfl i c
theorem rhs_dot9_1 (i : S64x1024.Idx) (c : dot_S64x9_S9x1024_S64x1024_1_0_0_1_n_n.contr.Idx) :
    (dot_S64x9_S9x1024_S64x1024_1_0_0_1_n_n.rhsIdx i c 1).val = (i 1).val := by
  unfold DotDims.rhsIdx
  rw [dif_neg (show ¬(1 : Fin S9x1024.rank) ∈ dot_S64x9_S9x1024_S64x1024_1_0_0_1_n_n.rhsBatch by decide),
    dif_pos (show (1 : Fin S9x1024.rank) ∈ dot_S64x9_S9x1024_S64x1024_1_0_0_1_n_n.rhsNonContracting by decide)]
  rfl

/-- The first layer's product at (g, q): row g of the 64 × 9 matrix against column q of the nine input rows. -/
theorem dot9_apply (A : FVec Ideal S64x9 .f32) (B : FVec Ideal S9x1024 .f32) (g : Fin 64) (q : Fin 1024) :
    matmul dot_S64x9_S9x1024_S64x1024_1_0_0_1_n_n (some .fp32) A B (constant (F := Ideal) S64x1024 .f32 0x00000000#32) (ix2 g q)
      = ∑ k : Fin 9, A (ix2 g k) * B (ix2 k q) := by
  simp only [matmul]
  rw [Ideal.matmul_constant_zero_apply, ← Equiv.sum_comp (contrEquiv1 dot_S64x9_S9x1024_S64x1024_1_0_0_1_n_n 9 rfl rfl).symm]
  refine Finset.sum_congr rfl fun k _ => ?_
  have hk := contrEquiv1_symm_val dot_S64x9_S9x1024_S64x1024_1_0_0_1_n_n 9 rfl rfl k
  have el : dot_S64x9_S9x1024_S64x1024_1_0_0_1_n_n.lhsIdx (ix2 g q) ((contrEquiv1 dot_S64x9_S9x1024_S64x1024_1_0_0_1_n_n 9 rfl rfl).symm k) = ix2 g k :=
    funext fun a => Fin.ext (by
      match a with
      | ⟨0, _⟩ => exact lhs_dot9_0 _ _
      | ⟨1, _⟩ => exact (lhs_dot9_1 _ _).trans hk)
  have er : dot_S64x9_S9x1024_S64x1024_1_0_0_1_n_n.rhsIdx (ix2 g q) ((contrEquiv1 dot_S64x9_S9x1024_S64x1024_1_0_0_1_n_n 9 rfl rfl).symm k) = ix2 k q :=
    funext fun a => Fin.ext (by
      match a with
      | ⟨0, _⟩ => exact (rhs_dot9_0 _ _).trans hk
      | ⟨1, _⟩ => exact rhs_dot9_1 _ _)
  rw [el, er]

theorem lhs_dot64_0 (i : S64x1024.Idx) (c : dot_S64x64_S64x1024_S64x1024_1_0_0_1_n_n.contr.Idx) :
    (dot_S64x64_S64x1024_S64x1024_1_0_0_1_n_n.lhsIdx i c 0).val = (i 0).val := by
  unfold DotDims.lhsIdx
  rw [dif_neg (show ¬(0 : Fin S64x64.rank) ∈ dot_S64x64_S64x1024_S64x1024_1_0_0_1_n_n.lhsBatch by decide),
    dif_pos (show (0 : Fin S64x64.rank) ∈ dot_S64x64_S64x1024_S64x1024_1_0_0_1_n_n.lhsNonContracting by decide)]
  rfl
theorem lhs_dot64_1 (i : S64x1024.Idx) (c : dot_S64x64_S64x1024_S64x1024_1_0_0_1_n_n.contr.Idx) :
    (dot_S64x64_S64x1024_S64x1024_1_0_0_1_n_n.lhsIdx i c 1).val = (c ⟨0, by decide⟩).val :=
  dot_S64x64_S64x1024_S64x1024_1_0_0_1_n_n.lhsIdx_val_of_single rfl i c
theorem rhs_dot64_0 (i : S64x1024.Idx) (c : dot_S64x64_S64x1024_S64x1024_1_0_0_1_n_n.contr.Idx) :
    (dot_S64x64_S64x1024_S64x1024_1_0_0_1_n_n.rhsIdx i c 0).val = (c ⟨0, by decide⟩).val :=
  dot_S64x64_S64x1024_S64x1024_1_0_0_1_n_n.rhsIdx_val_of_single rfl i c
theorem rhs_dot64_1 (i : S64x1024.Idx) (c : dot_S64x64_S64x1024_S64x1024_1_0_0_1_n_n.contr.Idx) :
    (dot_S64x64_S64x1024_S64x1024_1_0_0_1_n_n.rhsIdx i c 1).val = (i 1).val := by
  unfold DotDims.rhsIdx
  rw [dif_neg (show ¬(1 : Fin S64x1024.rank) ∈ dot_S64x64_S64x1024_S64x1024_1_0_0_1_n_n.rhsBatch by decide),
    dif_pos (show (1 : Fin S64x1024.rank) ∈ dot_S64x64_S64x1024_S64x1024_1_0_0_1_n_n.rhsNonContracting by decide)]
  rfl

/-- A hidden layer's product at (g, q): row g of the 64 × 64 matrix against column q of the slab. -/
theorem dot64_apply (A : FVec Ideal S64x64 .f32) (B : FVec Ideal S64x1024 .f32) (g : Fin 64) (q : Fin 1024) :
    matmul dot_S64x64_S64x1024_S64x1024_1_0_0_1_n_n (some .fp32) A B (constant (F := Ideal) S64x1024 .f32 0x00000000#32) (ix2 g q)
      = ∑ k : Fin 64, A (ix2 g k) * B (ix2 k q) := by
  simp only [matmul]
  rw [Ideal.matmul_constant_zero_apply, ← Equiv.sum_comp (contrEquiv1 dot_S64x64_S64x1024_S64x1024_1_0_0_1_n_n 64 rfl rfl).symm]
  refine Finset.sum_congr rfl fun k _ => ?_
  have hk := contrEquiv1_symm_val dot_S64x64_S64x1024_S64x1024_1_0_0_1_n_n 64 rfl rfl k
  have el : dot_S64x64_S64x1024_S64x1024_1_0_0_1_n_n.lhsIdx (ix2 g q) ((contrEquiv1 dot_S64x64_S64x1024_S64x1024_1_0_0_1_n_n 64 rfl rfl).symm k) = ix2 g k :=
    funext fun a => Fin.ext (by
      match a with
      | ⟨0, _⟩ => exact lhs_dot64_0 _ _
      | ⟨1, _⟩ => exact (lhs_dot64_1 _ _).trans hk)
  have er : dot_S64x64_S64x1024_S64x1024_1_0_0_1_n_n.rhsIdx (ix2 g q) ((contrEquiv1 dot_S64x64_S64x1024_S64x1024_1_0_0_1_n_n 64 rfl rfl).symm k) = ix2 k q :=
    funext fun a => Fin.ext (by
      match a with
      | ⟨0, _⟩ => exact (rhs_dot64_0 _ _).trans hk
      | ⟨1, _⟩ => exact rhs_dot64_1 _ _)
  rw [el, er]

/-! ## The stages that use them -/

/-- The first layer's tangent column: the ninth weight column at every lane. -/
theorem w0col_apply (w0 : Vec Ideal S1x64x9 .f32) (h : Fin 64) (q : Fin 1024) :
    broadcastTo S64x1024 (extractStridedSlice S64x1 ![0, 8] (w0M (F := Ideal) w0) slices_S64x9_o0_8_S64x1)
      broadcasts_S64x1_S64x1024 (ix2 h q) = w0 (ix3 (0 : Fin 1) h (8 : Fin 9)) := by
  rw [spread_apply]
  refine (extractStridedSlice_apply _ _ slices_S64x9_o0_8_S64x1 (ix2 h (0 : Fin 1)) (ix2 h (8 : Fin 9)) (fun a => ?_)).trans ?_
  · match a with
    | ⟨0, _⟩ => show h.val = 0 + h.val; omega
    | ⟨1, _⟩ => rfl
  exact w0M_apply w0 h 8

/-- A hidden layer's product at (g, q): the weight row g against column q. -/
theorem mmV_apply (w : Vec Ideal S1x64x64 .f32) (a : FVec Ideal S64x1024 .f32) (g : Fin 64) (q : Fin 1024) :
    mmV (F := Ideal) w a (ix2 g q) = ∑ h : Fin 64, w (ix3 (0 : Fin 1) g h) * a (ix2 h q) := by
  unfold mmV
  rw [dot64_apply]
  exact Finset.sum_congr rfl fun h _ => by rw [wM_apply]

/-- The output layer's weighted sum at lane q. -/
theorem outSumV_apply (wo : Vec Ideal S1x64 .f32) (a : FVec Ideal S64x1024 .f32) (q : Fin 1024) :
    outSumV (F := Ideal) wo a (ix1 q) = ∑ h : Fin 64, wo (ix2 (0 : Fin 1) h) * a (ix2 h q) := by
  unfold outSumV
  refine (Ideal.multiReduction_add_single (φ := .f32) _ _ reduces_S64x1024_S1024 _ _ (ix1 q)).trans ?_
  refine Finset.sum_congr rfl fun (k : Fin 64) _ => ?_
  have e : reduces_S64x1024_S1024.lift (ix1 q) k = ix2 k q := funext fun c => Fin.ext (by
    match c with
    | ⟨0, _⟩ => rfl
    | ⟨1, _⟩ => rfl)
  rw [e, mulf_apply]
  exact congrArg (· * a (ix2 k q)) (biasV_apply wo k q)

/-! ## The layers, composed: each stage at (unit, lane) is the specification's stage of that unit at the lane's input -/

variable (z : Vec Ideal S8x1024 .f32) (xr : Vec Ideal S1x1024 .f32) (w0 : Vec Ideal S1x64x9 .f32) (b0 : Vec Ideal S1x64 .f32)
  (w1 : Vec Ideal S1x64x64 .f32) (b1 : Vec Ideal S1x64 .f32) (w2 : Vec Ideal S1x64x64 .f32) (b2 : Vec Ideal S1x64 .f32)
  (wo : Vec Ideal S1x64 .f32) (bo : Vec Ideal S1x1 .f32)

/-- First layer's pre-activation of unit h at lane q. -/
theorem pre0V_apply (h : Fin 64) (q : Fin 1024) :
    pre0V (F := Ideal) z xr w0 b0 (ix2 h q)
      = Cert.Mlp.pre0 (Cert.Mlp.inp (fun k => z (ix2 k q)) (xr (ix2 (0 : Fin 1) q))) (fun h k => w0 (ix3 (0 : Fin 1) h k))
          (fun h => b0 (ix2 (0 : Fin 1) h)) h := by
  unfold pre0V
  rw [addf_apply, dot9_apply, biasV_apply, Cert.Mlp.pre0_comm]
  exact congrArg (· + b0 (ix2 (0 : Fin 1) h)) (Finset.sum_congr rfl fun k _ => by rw [w0M_apply, inpV_apply])

/-- First layer's tangent of unit h at lane q. -/
theorem tan0V_apply (h : Fin 64) (q : Fin 1024) :
    tan0V (F := Ideal) w0 (pre0V (F := Ideal) z xr w0 b0) (ix2 h q)
      = Cert.Mlp.tan0 (Cert.Mlp.inp (fun k => z (ix2 k q)) (xr (ix2 (0 : Fin 1) q))) (fun h k => w0 (ix3 (0 : Fin 1) h k))
          (fun h => b0 (ix2 (0 : Fin 1) h)) h := by
  unfold tan0V
  rw [mulf_apply, w0col_apply, dactV_apply, pre0V_apply]
  rfl

/-- Second layer's pre-activation of unit g at lane q. -/
theorem pre1V_apply (g : Fin 64) (q : Fin 1024) :
    pre1V (F := Ideal) z xr w0 b0 w1 b1 (ix2 g q)
      = Cert.Mlp.pre1 (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g)) g := by
  unfold pre1V
  rw [addf_apply, mmV_apply, biasV_apply, Cert.Mlp.pre1_comm]
  exact congrArg (· + b1 (ix2 (0 : Fin 1) g)) (Finset.sum_congr rfl fun h _ => by rw [actV_apply, pre0V_apply])

/-- Second layer's tangent of unit g at lane q. -/
theorem tan1V_apply (g : Fin 64) (q : Fin 1024) :
    tan1V (F := Ideal) z xr w0 b0 w1 b1 (ix2 g q)
      = Cert.Mlp.tan1 (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g)) g := by
  unfold tan1V
  rw [mulf_apply, mmV_apply, dactV_apply, pre1V_apply, Cert.Mlp.tan1_comm]
  exact congrArg (· * Cert.Mlp.dlrelu (Cert.Mlp.pre1 (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g)) g))
    (Finset.sum_congr rfl fun h _ => by rw [tan0V_apply])

/-- Third layer's pre-activation of unit g at lane q. -/
theorem pre2V_apply (g : Fin 64) (q : Fin 1024) :
    pre2V (F := Ideal) z xr w0 b0 w1 b1 w2 b2 (ix2 g q)
      = Cert.Mlp.pre2 (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g))
          (fun g h => w2 (ix3 (0 : Fin 1) g h)) (fun g => b2 (ix2 (0 : Fin 1) g)) g := by
  unfold pre2V
  rw [addf_apply, mmV_apply, biasV_apply, Cert.Mlp.pre2_comm]
  exact congrArg (· + b2 (ix2 (0 : Fin 1) g)) (Finset.sum_congr rfl fun h _ => by rw [actV_apply, pre1V_apply])

/-- Third layer's tangent of unit g at lane q. -/
theorem tan2V_apply (g : Fin 64) (q : Fin 1024) :
    tan2V (F := Ideal) z xr w0 b0 w1 b1 w2 b2 (ix2 g q)
      = Cert.Mlp.tan2 (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g))
          (fun g h => w2 (ix3 (0 : Fin 1) g h)) (fun g => b2 (ix2 (0 : Fin 1) g)) g := by
  unfold tan2V
  rw [mulf_apply, mmV_apply, dactV_apply, pre2V_apply, Cert.Mlp.tan2_comm]
  exact congrArg (· * Cert.Mlp.dlrelu (Cert.Mlp.pre2 (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g))
          (fun g h => w2 (ix3 (0 : Fin 1) g h)) (fun g => b2 (ix2 (0 : Fin 1) g)) g))
    (Finset.sum_congr rfl fun h _ => by rw [tan1V_apply])

/-- A 1024-lane row stored as a 1 × 1024 row reads lane q at (0, q). -/
theorem asRow_apply (v : FVec Ideal S1024 .f32) (q : Fin 1024) :
    shapeCast S1x1024 v shapeCasts_S1024_S1x1024 (ix2 (0 : Fin 1) q) = v (ix1 q) := by
  refine shapeCast_apply _ shapeCasts_S1024_S1x1024 (ix2 (0 : Fin 1) q) (ix1 q) ?_
  rw [Shape.rowMajor_val_one, Shape.rowMajor_val_two]
  show q.val = 0 * 1024 + q.val
  omega

/-- The output bias spread over the lanes reads the slab's one entry at every lane. -/
theorem outBias_apply (q : Fin 1024) :
    broadcastTo S1024 (shapeCast S1 bo shapeCasts_S1x1_S1) broadcasts_S1_S1024 (ix1 q) = bo (ix2 (0 : Fin 1) (0 : Fin 1)) := by
  refine (broadcastTo_apply _ broadcasts_S1_S1024 (ix1 q) (ix1 (0 : Fin 1)) (fun a => ?_)).trans ?_
  · match a with
    | ⟨0, _⟩ => show 0 = if (1 : Nat) = 1 then 0 else q.val; rw [if_pos rfl]
  refine shapeCast_apply _ shapeCasts_S1x1_S1 (ix1 (0 : Fin 1)) (ix2 (0 : Fin 1) (0 : Fin 1)) ?_
  rw [Shape.rowMajor_val_one, Shape.rowMajor_val_two]
  rfl

/-- Lane `q` of the output row. -/
theorem rowRes_apply (q : Fin 1024) :
    rowRes (F := Ideal) z xr w0 b0 w1 b1 w2 b2 wo bo (ix2 (0 : Fin 1) q)
      = Cert.Mlp.res (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g))
          (fun g h => w2 (ix3 (0 : Fin 1) g h)) (fun g => b2 (ix2 (0 : Fin 1) g)) (fun h => wo (ix2 (0 : Fin 1) h))
          (bo (ix2 (0 : Fin 1) (0 : Fin 1))) := by
  unfold rowRes
  rw [asRow_apply, addf_apply, outSumV_apply, outBias_apply, Cert.Mlp.res_comm]
  exact congrArg (· + bo (ix2 (0 : Fin 1) (0 : Fin 1)))
    (Finset.sum_congr rfl fun h _ => by rw [actV_apply, pre2V_apply])

/-- Lane `q` of the derivative row. -/
theorem rowDout_apply (q : Fin 1024) :
    rowDout (F := Ideal) z xr w0 b0 w1 b1 w2 b2 wo (ix2 (0 : Fin 1) q)
      = Cert.Mlp.dout (Cert.Mlp.inp (fun k => z (ix2 k q)) (xr (ix2 (0 : Fin 1) q))) (fun h k => w0 (ix3 (0 : Fin 1) h k))
          (fun h => b0 (ix2 (0 : Fin 1) h)) (fun g h => w1 (ix3 (0 : Fin 1) g h)) (fun g => b1 (ix2 (0 : Fin 1) g))
          (fun g h => w2 (ix3 (0 : Fin 1) g h)) (fun g => b2 (ix2 (0 : Fin 1) g)) (fun h => wo (ix2 (0 : Fin 1) h)) := by
  unfold rowDout
  rw [asRow_apply, outSumV_apply, Cert.Mlp.dout_comm]
  exact Finset.sum_congr rfl fun h _ => by rw [tan2V_apply]

end Cert.KernelIdeal.Row

end
-- ==== Proof.KernelBlock.lean ====
/-
  What one grid point leaves in the two output blocks, entry by entry.

  A grid point works on 1024 batch rows (one per lane).  Each output block is 8 × 1024: row `d` is written by ONE
  store, whose value is dimension `d`'s row function of the slabs loaded for `d` — the whole shared block, row `d` of
  the private-input block, slab `d` of every weight and bias.  So entry (d, q) of the first block is the specification's
  network output at lane `q`'s nine inputs under dimension `d`'s parameters, and entry (d, q) of the second its
  derivative along the private input: the eight rows tile the block, and each row is the same function of (d, q).
-/
import proofs.«429064_j39075612459501_4_alg».proof.Proof.Gen.KernelIdeal.Frame
import proofs.«429064_j39075612459501_4_alg».proof.Proof.KernelRowValue
import proofs.«429064_j39075612459501_4_alg».proof.Proof.MlpSpec
import Idealize.ShloMosaic.Lib.Pipeline.Value
import Idealize.ShloMosaic.Lib.ValueIdx

set_option maxRecDepth 16384

noncomputable section

open scoped BigOperators

namespace Cert.KernelIdeal.Block

open Idealize.ShloMosaic Idealize.SL.Sem Idealize.ShloMosaic.ValueIdx Cert.KernelIdeal Cert.KernelIdeal.Gen Cert.KernelIdeal.Row

/-! ## The slabs of dimension `d` -/

/-- Row `d` of an 8 × 1024 block. -/
abbrev rowR (d : Fin 8) : Rect S8x1024 :=
  Rect.unit (s := S8x1024) ![d.val, 0] S1x1024.size (fun a => by
    have := d.isLt
    match a with
    | ⟨0, _⟩ => show d.val + 1 ≤ 8; omega
    | ⟨1, _⟩ => show 0 + 1024 ≤ 1024; omega)
/-- Slab `d` of the first layer's 8 × 64 × 9 weights. -/
abbrev w0R (d : Fin 8) : Rect S8x64x9 :=
  Rect.unit (s := S8x64x9) ![d.val, 0, 0] S1x64x9.size (fun a => by
    have := d.isLt
    match a with
    | ⟨0, _⟩ => show d.val + 1 ≤ 8; omega
    | ⟨1, _⟩ => show 0 + 64 ≤ 64; omega
    | ⟨2, _⟩ => show 0 + 9 ≤ 9; omega)
/-- Row `d` of an 8 × 64 bias (or output-weight) array. -/
abbrev bR (d : Fin 8) : Rect S8x64 :=
  Rect.unit (s := S8x64) ![d.val, 0] S1x64.size (fun a => by
    have := d.isLt
    match a with
    | ⟨0, _⟩ => show d.val + 1 ≤ 8; omega
    | ⟨1, _⟩ => show 0 + 64 ≤ 64; omega)
/-- Slab `d` of a hidden layer's 8 × 64 × 64 weights. -/
abbrev wR (d : Fin 8) : Rect S8x64x64 :=
  Rect.unit (s := S8x64x64) ![d.val, 0, 0] S1x64x64.size (fun a => by
    have := d.isLt
    match a with
    | ⟨0, _⟩ => show d.val + 1 ≤ 8; omega
    | ⟨1, _⟩ => show 0 + 64 ≤ 64; omega
    | ⟨2, _⟩ => show 0 + 64 ≤ 64; omega)
/-- Entry `d` of the 8 × 1 output bias. -/
abbrev oR (d : Fin 8) : Rect S8x1 :=
  Rect.unit (s := S8x1) ![d.val, 0] S1x1.size (fun a => by
    have := d.isLt
    match a with
    | ⟨0, _⟩ => show d.val + 1 ≤ 8; omega
    | ⟨1, _⟩ => show 0 + 1 ≤ 1; omega)

section Rows

variable {F : FTy → Type} [FloatOps F]
variable (x0 : Vec F S8x1024 .f32) (x1 : Vec F S8x1024 .f32) (x2 : Vec F S8x64x9 .f32) (x3 : Vec F S8x64 .f32)
  (x4 : Vec F S8x64x64 .f32) (x5 : Vec F S8x64 .f32) (x6 : Vec F S8x64x64 .f32) (x7 : Vec F S8x64 .f32)
  (x8 : Vec F S8x64 .f32) (x9 : Vec F S8x1 .f32)

/-- Dimension `d`'s output row, from the point's input blocks. -/
def dimRes (d : Fin 8) : FVec F S1x1024 .f32 :=
  rowRes (View.ld x0 r0_0) (View.ld x1 (rowR d)) (View.ld x2 (w0R d)) (View.ld x3 (bR d)) (View.ld x4 (wR d))
    (View.ld x5 (bR d)) (View.ld x6 (wR d)) (View.ld x7 (bR d)) (View.ld x8 (bR d)) (View.ld x9 (oR d))
/-- Dimension `d`'s derivative row, from the point's input blocks. -/
def dimDout (d : Fin 8) : FVec F S1x1024 .f32 :=
  rowDout (View.ld x0 r0_0) (View.ld x1 (rowR d)) (View.ld x2 (w0R d)) (View.ld x3 (bR d)) (View.ld x4 (wR d))
    (View.ld x5 (bR d)) (View.ld x6 (wR d)) (View.ld x7 (bR d)) (View.ld x8 (bR d))

/-- The first output block after the body: its eight row stores, each dimension's output row (last store first). -/
theorem out0_10_rows : out0_10 x0 x1 x2 x3 x4 x5 x6 x7 x8 x9
    = View.canon [⟨rowR 7, dimRes x0 x1 x2 x3 x4 x5 x6 x7 x8 x9 7⟩, ⟨rowR 6, dimRes x0 x1 x2 x3 x4 x5 x6 x7 x8 x9 6⟩,
        ⟨rowR 5, dimRes x0 x1 x2 x3 x4 x5 x6 x7 x8 x9 5⟩, ⟨rowR 4, dimRes x0 x1 x2 x3 x4 x5 x6 x7 x8 x9 4⟩,
        ⟨rowR 3, dimRes x0 x1 x2 x3 x4 x5 x6 x7 x8 x9 3⟩, ⟨rowR 2, dimRes x0 x1 x2 x3 x4 x5 x6 x7 x8 x9 2⟩,
        ⟨rowR 1, dimRes x0 x1 x2 x3 x4 x5 x6 x7 x8 x9 1⟩, ⟨rowR 0, dimRes x0 x1 x2 x3 x4 x5 x6 x7 x8 x9 0⟩] := rfl

/-- The second output block after the body: each dimension's derivative row. -/
theorem out0_11_rows : out0_11 x0 x1 x2 x3 x4 x5 x6 x7 x8 x9
    = View.canon [⟨rowR 7, dimDout x0 x1 x2 x3 x4 x5 x6 x7 x8 7⟩, ⟨rowR 6, dimDout x0 x1 x2 x3 x4 x5 x6 x7 x8 6⟩,
        ⟨rowR 5, dimDout x0 x1 x2 x3 x4 x5 x6 x7 x8 5⟩, ⟨rowR 4, dimDout x0 x1 x2 x3 x4 x5 x6 x7 x8 4⟩,
        ⟨rowR 3, dimDout x0 x1 x2 x3 x4 x5 x6 x7 x8 3⟩, ⟨rowR 2, dimDout x0 x1 x2 x3 x4 x5 x6 x7 x8 2⟩,
        ⟨rowR 1, dimDout x0 x1 x2 x3 x4 x5 x6 x7 x8 1⟩, ⟨rowR 0, dimDout x0 x1 x2 x3 x4 x5 x6 x7 x8 0⟩] := rfl

end Rows

/-! ## Reading a slab: a load through a unit rectangle is the block at offset + coordinate -/

section Reads

variable {F : FTy → Type}

/-- The whole 8 × 1024 block, loaded at offset (0, 0). -/
theorem ld_all (x : Vec F S8x1024 .f32) (k : Fin 8) (q : Fin 1024) : View.ld x r0_0 (ix2 k q) = x (ix2 k q) :=
  congrArg x (funext fun a => Fin.ext (match a with
    | ⟨0, _⟩ => by show 0 + 1 * k.val = k.val; omega
    | ⟨1, _⟩ => by show 0 + 1 * q.val = q.val; omega))
/-- Row `d` of an 8 × 1024 block. -/
theorem ld_row (x : Vec F S8x1024 .f32) (d : Fin 8) (q : Fin 1024) :
    View.ld x (rowR d) (ix2 (0 : Fin 1) q) = x (ix2 d q) :=
  congrArg x (funext fun a => Fin.ext (match a with
    | ⟨0, _⟩ => by show d.val + 1 * 0 = d.val; omega
    | ⟨1, _⟩ => by show 0 + 1 * q.val = q.val; omega))
/-- Slab `d` of the 8 × 64 × 9 weights. -/
theorem ld_w0 (x : Vec F S8x64x9 .f32) (d : Fin 8) (h : Fin 64) (k : Fin 9) :
    View.ld x (w0R d) (ix3 (0 : Fin 1) h k) = x (ix3 d h k) :=
  congrArg x (funext fun a => Fin.ext (match a with
    | ⟨0, _⟩ => by show d.val + 1 * 0 = d.val; omega
    | ⟨1, _⟩ => by show 0 + 1 * h.val = h.val; omega
    | ⟨2, _⟩ => by show 0 + 1 * k.val = k.val; omega))
/-- Row `d` of an 8 × 64 array. -/
theorem ld_b (x : Vec F S8x64 .f32) (d : Fin 8) (h : Fin 64) : View.ld x (bR d) (ix2 (0 : Fin 1) h) = x (ix2 d h) :=
  congrArg x (funext fun a => Fin.ext (match a with
    | ⟨0, _⟩ => by show d.val + 1 * 0 = d.val; omega
    | ⟨1, _⟩ => by show 0 + 1 * h.val = h.val; omega))
/-- Slab `d` of 8 × 64 × 64 weights. -/
theorem ld_w (x : Vec F S8x64x64 .f32) (d : Fin 8) (g h : Fin 64) :
    View.ld x (wR d) (ix3 (0 : Fin 1) g h) = x (ix3 d g h) :=
  congrArg x (funext fun a => Fin.ext (match a with
    | ⟨0, _⟩ => by show d.val + 1 * 0 = d.val; omega
    | ⟨1, _⟩ => by show 0 + 1 * g.val = g.val; omega
    | ⟨2, _⟩ => by show 0 + 1 * h.val = h.val; omega))
/-- Entry `d` of the 8 × 1 bias. -/
theorem ld_o (x : Vec F S8x1 .f32) (d : Fin 8) : View.ld x (oR d) (ix2 (0 : Fin 1) (0 : Fin 1)) = x (ix2 d (0 : Fin 1)) :=
  congrArg x (funext fun a => Fin.ext (match a with
    | ⟨0, _⟩ => by show d.val + 1 * 0 = d.val; omega
    | ⟨1, _⟩ => by show 0 + 1 * 0 = 0; omega))
/-- Row `d`'s rectangle places lane `q` at (d, q). -/
theorem rowR_emb (d : Fin 8) (q : Fin 1024) : (rowR d).emb (ix2 (0 : Fin 1) q) = ix2 d q :=
  funext fun a => Fin.ext (match a with
    | ⟨0, _⟩ => by show d.val + 1 * 0 = d.val; omega
    | ⟨1, _⟩ => by show 0 + 1 * q.val = q.val; omega)

end Reads

/-! ## The two blocks entry by entry, at the extended reals -/

section AtIdeal

variable (x0 : Vec Ideal S8x1024 .f32) (x1 : Vec Ideal S8x1024 .f32) (x2 : Vec Ideal S8x64x9 .f32) (x3 : Vec Ideal S8x64 .f32)
  (x4 : Vec Ideal S8x64x64 .f32) (x5 : Vec Ideal S8x64 .f32) (x6 : Vec Ideal S8x64x64 .f32) (x7 : Vec Ideal S8x64 .f32)
  (x8 : Vec Ideal S8x64 .f32) (x9 : Vec Ideal S8x1 .f32)

/-- Entry (d, q) of the first output block: the network's output at lane `q`'s inputs under dimension `d`'s parameters. -/
def blockRes (d : Fin 8) (q : Fin 1024) : EReal :=
  Cert.Mlp.res (Cert.Mlp.inp (fun k => x0 (ix2 k q)) (x1 (ix2 d q))) (fun h k => x2 (ix3 d h k)) (fun h => x3 (ix2 d h))
    (fun g h => x4 (ix3 d g h)) (fun g => x5 (ix2 d g)) (fun g h => x6 (ix3 d g h)) (fun g => x7 (ix2 d g))
    (fun h => x8 (ix2 d h)) (x9 (ix2 d (0 : Fin 1)))
/-- Entry (d, q) of the second output block: its derivative along the private input. -/
def blockDout (d : Fin 8) (q : Fin 1024) : EReal :=
  Cert.Mlp.dout (Cert.Mlp.inp (fun k => x0 (ix2 k q)) (x1 (ix2 d q))) (fun h k => x2 (ix3 d h k)) (fun h => x3 (ix2 d h))
    (fun g h => x4 (ix3 d g h)) (fun g => x5 (ix2 d g)) (fun g h => x6 (ix3 d g h)) (fun g => x7 (ix2 d g))
    (fun h => x8 (ix2 d h))

/-- Lane `q` of dimension `d`'s output row is entry (d, q). -/
theorem dimRes_apply (d : Fin 8) (q : Fin 1024) :
    dimRes (F := Ideal) x0 x1 x2 x3 x4 x5 x6 x7 x8 x9 d (ix2 (0 : Fin 1) q) = blockRes x0 x1 x2 x3 x4 x5 x6 x7 x8 x9 d q := by
  unfold dimRes blockRes
  refine (rowRes_apply _ _ _ _ _ _ _ _ _ _ q).trans ?_
  congr 1
  · congr 1
    · funext k; exact ld_all x0 k q
    · exact ld_row x1 d q
  · funext h k; exact ld_w0 x2 d h k
  · funext h; exact ld_b x3 d h
  · funext g h; exact ld_w x4 d g h
  · funext g; exact ld_b x5 d g
  · funext g h; exact ld_w x6 d g h
  · funext g; exact ld_b x7 d g
  · funext h; exact ld_b x8 d h
  · exact ld_o x9 d
/-- Lane `q` of dimension `d`'s derivative row is entry (d, q). -/
theorem dimDout_apply (d : Fin 8) (q : Fin 1024) :
    dimDout (F := Ideal) x0 x1 x2 x3 x4 x5 x6 x7 x8 d (ix2 (0 : Fin 1) q) = blockDout x0 x1 x2 x3 x4 x5 x6 x7 x8 d q := by
  unfold dimDout blockDout
  refine (rowDout_apply _ _ _ _ _ _ _ _ _ q).trans ?_
  congr 1
  · congr 1
    · funext k; exact ld_all x0 k q
    · exact ld_row x1 d q
  · funext h k; exact ld_w0 x2 d h k
  · funext h; exact ld_b x3 d h
  · funext g h; exact ld_w x4 d g h
  · funext g; exact ld_b x5 d g
  · funext g h; exact ld_w x6 d g h
  · funext g; exact ld_b x7 d g
  · funext h; exact ld_b x8 d h

/-- Every index of a 1 × 1024 row is a lane. -/
theorem row_idx (x : S1x1024.Idx) : ∃ q : Fin 1024, x = ix2 (0 : Fin 1) q :=
  ⟨x 1, funext fun a => match a with
    | ⟨0, _⟩ => Fin.ext (by have h : (x 0).val < 1 := (x 0).isLt; show (x 0).val = 0; omega)
    | ⟨1, _⟩ => rfl⟩

/-- Dimension `d`'s output row is the block function along row `d`. -/
theorem piece_res (d : Fin 8) (x : S1x1024.Idx) :
    dimRes (F := Ideal) x0 x1 x2 x3 x4 x5 x6 x7 x8 x9 d x
      = blockRes x0 x1 x2 x3 x4 x5 x6 x7 x8 x9 (((rowR d).emb x) 0) (((rowR d).emb x) 1) := by
  obtain ⟨q, rfl⟩ := row_idx x
  exact (dimRes_apply x0 x1 x2 x3 x4 x5 x6 x7 x8 x9 d q).trans
    (congrArg (fun y : S8x1024.Idx => blockRes x0 x1 x2 x3 x4 x5 x6 x7 x8 x9 (y 0) (y 1)) (rowR_emb d q)).symm
/-- Dimension `d`'s derivative row is the block function along row `d`. -/
theorem piece_dout (d : Fin 8) (x : S1x1024.Idx) :
    dimDout (F := Ideal) x0 x1 x2 x3 x4 x5 x6 x7 x8 d x
      = blockDout x0 x1 x2 x3 x4 x5 x6 x7 x8 (((rowR d).emb x) 0) (((rowR d).emb x) 1) := by
  obtain ⟨q, rfl⟩ := row_idx x
  exact (dimDout_apply x0 x1 x2 x3 x4 x5 x6 x7 x8 d q).trans
    (congrArg (fun y : S8x1024.Idx => blockDout x0 x1 x2 x3 x4 x5 x6 x7 x8 (y 0) (y 1)) (rowR_emb d q)).symm

/-- THE FIRST BLOCK: entry (d, q) after the body. -/
theorem out0_10_apply (d : Fin 8) (q : Fin 1024) :
    out0_10 (F := Ideal) x0 x1 x2 x3 x4 x5 x6 x7 x8 x9 (ix2 d q) = blockRes x0 x1 x2 x3 x4 x5 x6 x7 x8 x9 d q := by
  rw [out0_10_rows]
  refine (View.canon_apply_of_pieces (fun y : S8x1024.Idx => blockRes x0 x1 x2 x3 x4 x5 x6 x7 x8 x9 (y 0) (y 1)) _ ?_
    (ix2 d q) (cover0_10 _ _ _ _ _ _ _ _ (ix2 d q))).trans rfl
  intro pc hpc
  simp only [List.mem_cons, List.mem_nil_iff, or_false] at hpc
  rcases hpc with rfl | rfl | rfl | rfl | rfl | rfl | rfl | rfl <;>
    exact fun x => piece_res x0 x1 x2 x3 x4 x5 x6 x7 x8 x9 _ x

/-- THE SECOND BLOCK: entry (d, q) after the body. -/
theorem out0_11_apply (d : Fin 8) (q : Fin 1024) :
    out0_11 (F := Ideal) x0 x1 x2 x3 x4 x5 x6 x7 x8 x9 (ix2 d q) = blockDout x0 x1 x2 x3 x4 x5 x6 x7 x8 d q := by
  rw [out0_11_rows]
  refine (View.canon_apply_of_pieces (fun y : S8x1024.Idx => blockDout x0 x1 x2 x3 x4 x5 x6 x7 x8 (y 0) (y 1)) _ ?_
    (ix2 d q) (cover0_11 _ _ _ _ _ _ _ _ (ix2 d q))).trans rfl
  intro pc hpc
  simp only [List.mem_cons, List.mem_nil_iff, or_false] at hpc
  rcases hpc with rfl | rfl | rfl | rfl | rfl | rfl | rfl | rfl <;>
    exact fun x => piece_dout x0 x1 x2 x3 x4 x5 x6 x7 x8 _ x

end AtIdeal

end Cert.KernelIdeal.Block

end
-- ==== Proof.KernelArray.lean ====
/-
  From blocks to arrays: what the region leaves in its two [8, 131072] output arrays.

  The grid has 128 points; point `t` works on batch rows 1024·t … 1024·t + 1023.  The two input arrays with a batch
  axis and the two output arrays are cut into 8 × 1024 blocks along that axis, block `t` at point `t`; the weights
  and biases are staged whole at every point.  So lane `q` of point `t`'s blocks is batch row 1024·t + q of the
  arrays, the block functions of the previous module are the restrictions of ONE function of the array index — entry
  (d, b) is the specification's network (or its derivative) at row `b`'s inputs under dimension `d`'s parameters —
  and the 128 blocks written back cover each array exactly once.
-/
import proofs.«429064_j39075612459501_4_alg».proof.Proof.KernelBlock
import Idealize.ShloMosaic.Lib.Pipeline.Value
import Idealize.ShloMosaic.Lib.ValueIdx

set_option maxRecDepth 16384

noncomputable section

open scoped BigOperators

namespace Cert.KernelIdeal.Arr

open Idealize.ShloMosaic Idealize.ShloMosaic.TcCoe Idealize.SL.Sem Idealize.ShloMosaic.ValueIdx
open Cert.KernelIdeal Cert.KernelIdeal.Gen Cert.KernelIdeal.Block
open Idealize.ShloMosaic.Pipeline (Dat)

/-- The batch row under lane `q` of grid point `t`. -/
def lane (t : Fin cfg0.N) (q : Fin 1024) : Fin 131072 :=
  ⟨t.val * 1024 + q.val, by have h := t.isLt; have e : cfg0.N = 128 := N_0; have := q.isLt; omega⟩

/-! ## The array functions -/

section Fn

variable (A0 A1 : Vec Ideal S8x131072 .f32) (A2 : Vec Ideal S8x64x9 .f32) (A3 : Vec Ideal S8x64 .f32)
  (A4 : Vec Ideal S8x64x64 .f32) (A5 : Vec Ideal S8x64 .f32) (A6 : Vec Ideal S8x64x64 .f32) (A7 : Vec Ideal S8x64 .f32)
  (A8 : Vec Ideal S8x64 .f32) (A9 : Vec Ideal S8x1 .f32)

/-- Entry (d, b) of the first output array: the network's output at batch row `b` under dimension `d`'s parameters. -/
def arrRes : Vec Ideal S8x131072 .f32 := fun i =>
  Cert.Mlp.res (Cert.Mlp.inp (fun k => A0 (ix2 k (i 1))) (A1 (ix2 (i 0) (i 1)))) (fun h k => A2 (ix3 (i 0) h k))
    (fun h => A3 (ix2 (i 0) h)) (fun g h => A4 (ix3 (i 0) g h)) (fun g => A5 (ix2 (i 0) g)) (fun g h => A6 (ix3 (i 0) g h))
    (fun g => A7 (ix2 (i 0) g)) (fun h => A8 (ix2 (i 0) h)) (A9 (ix2 (i 0) (0 : Fin 1)))
/-- Entry (d, b) of the second output array: its derivative along the private input. -/
def arrDout : Vec Ideal S8x131072 .f32 := fun i =>
  Cert.Mlp.dout (Cert.Mlp.inp (fun k => A0 (ix2 k (i 1))) (A1 (ix2 (i 0) (i 1)))) (fun h k => A2 (ix3 (i 0) h k))
    (fun h => A3 (ix2 (i 0) h)) (fun g h => A4 (ix3 (i 0) g h)) (fun g => A5 (ix2 (i 0) g)) (fun g h => A6 (ix3 (i 0) g h))
    (fun g => A7 (ix2 (i 0) g)) (fun h => A8 (ix2 (i 0) h))

/-- A block whose lanes are the arrays' batch rows computes the array function's entries there. -/
theorem blockRes_lane (t : Fin cfg0.N) (X0 X1 : Vec Ideal S8x1024 .f32)
    (hz : ∀ (k : Fin 8) (q : Fin 1024), X0 (ix2 k q) = A0 (ix2 k (lane t q)))
    (hx : ∀ (d : Fin 8) (q : Fin 1024), X1 (ix2 d q) = A1 (ix2 d (lane t q))) (d : Fin 8) (q : Fin 1024) :
    blockRes X0 X1 A2 A3 A4 A5 A6 A7 A8 A9 d q = arrRes A0 A1 A2 A3 A4 A5 A6 A7 A8 A9 (ix2 d (lane t q)) := by
  unfold blockRes arrRes
  congr 1
  congr 1
  · funext k; exact hz k q
  · exact hx d q
theorem blockDout_lane (t : Fin cfg0.N) (X0 X1 : Vec Ideal S8x1024 .f32)
    (hz : ∀ (k : Fin 8) (q : Fin 1024), X0 (ix2 k q) = A0 (ix2 k (lane t q)))
    (hx : ∀ (d : Fin 8) (q : Fin 1024), X1 (ix2 d q) = A1 (ix2 d (lane t q))) (d : Fin 8) (q : Fin 1024) :
    blockDout X0 X1 A2 A3 A4 A5 A6 A7 A8 d q = arrDout A0 A1 A2 A3 A4 A5 A6 A7 A8 (ix2 d (lane t q)) := by
  unfold blockDout arrDout
  congr 1
  congr 1
  · funext k; exact hz k q
  · exact hx d q

end Fn

/-! ## The printed index maps, decided over the grid -/

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = t.val :=
  (by decide +kernel : ∀ t : Fin grid0.N, win0_10.index t (0 : Fin 2) = 0 ∧ win0_10.index t (1 : Fin 2) = t.val)
theorem idx11 : ∀ t : Fin cfg0.N, win0_11.index t (0 : Fin 2) = 0 ∧ win0_11.index t (1 : Fin 2) = t.val :=
  (by decide +kernel : ∀ t : Fin grid0.N, win0_11.index t (0 : Fin 2) = 0 ∧ win0_11.index t (1 : Fin 2) = t.val)

/-! ## The input blocks -/

variable (m : (ℓ : Loc nD τ sig) → Buf (Elt Ideal) ℓ)

/-- The array functions at the arrays the region finds. -/
abbrev resOf (c : Dev nD) : Vec Ideal S8x131072 .f32 :=
  arrRes (V m c main_v0) (V m c main_v1) (V m c main_arg2) (V m c main_arg3) (V m c main_arg4) (V m c main_arg5)
    (V m c main_arg6) (V m c main_arg7) (V m c main_v2) (V m c main_arg9)
abbrev doutOf (c : Dev nD) : Vec Ideal S8x131072 .f32 :=
  arrDout (V m c main_v0) (V m c main_v1) (V m c main_arg2) (V m c main_arg3) (V m c main_arg4) (V m c main_arg5)
    (V m c main_arg6) (V m c main_arg7) (V m c main_v2)

/-- Lane `q` of the shared-input block at point `t` is batch row `lane t q`. -/
theorem iblk_z (c : Dev nD) (t : Fin cfg0.N) (k : Fin 8) (q : Fin 1024) :
    iblk m c 0 t (ix2 k q) = V m c main_v0 (ix2 k (lane t q)) := by
  obtain ⟨e0, e1⟩ := idx0 t
  show V m c main_v0 (((cfg0.win 0).blk t).view.emb (ix2 k q)) = V m c main_v0 (ix2 k (lane t q))
  refine congrArg (V m c main_v0) (funext fun a => Fin.ext ?_)
  match a with
  | ⟨0, _⟩ => show win0_0.index t (0 : Fin 2) * 8 + 1 * k.val = k.val; rw [e0]; omega
  | ⟨1, _⟩ => show win0_0.index t (1 : Fin 2) * 1024 + 1 * q.val = t.val * 1024 + q.val; rw [e1]; omega
/-- Lane `q` of the private-input block at point `t` is batch row `lane t q`. -/
theorem iblk_x (c : Dev nD) (t : Fin cfg0.N) (d : Fin 8) (q : Fin 1024) :
    iblk m c 1 t (ix2 d q) = V m c main_v1 (ix2 d (lane t q)) := by
  obtain ⟨e0, e1⟩ := idx1 t
  show V m c main_v1 (((cfg0.win 1).blk t).view.emb (ix2 d q)) = V m c main_v1 (ix2 d (lane t q))
  refine congrArg (V m c main_v1) (funext fun a => Fin.ext ?_)
  match a with
  | ⟨0, _⟩ => show win0_1.index t (0 : Fin 2) * 8 + 1 * d.val = d.val; rw [e0]; omega
  | ⟨1, _⟩ => show win0_1.index t (1 : Fin 2) * 1024 + 1 * q.val = t.val * 1024 + q.val; rw [e1]; omega
/-- Window 2 stages its whole array at every point. -/
theorem iblk2 (c : Dev nD) (t : Fin cfg0.N) : iblk m c 2 t = V m c main_arg2 := by
  obtain ⟨e0, e1, e2⟩ := idx2 t
  funext y
  show V m c main_arg2 (((cfg0.win 2).blk t).view.emb y) = V m c main_arg2 y
  refine congrArg (V m c main_arg2) (funext fun a => Fin.ext ?_)
  match a with
  | ⟨0, _⟩ => show win0_2.index t (0 : Fin 3) * 8 + 1 * (y 0).val = (y 0).val; rw [e0]; omega
  | ⟨1, _⟩ => show win0_2.index t (1 : Fin 3) * 64 + 1 * (y 1).val = (y 1).val; rw [e1]; omega
  | ⟨2, _⟩ => show win0_2.index t (2 : Fin 3) * 9 + 1 * (y 2).val = (y 2).val; rw [e2]; omega
/-- Window 3 stages its whole array at every point. -/
theorem iblk3 (c : Dev nD) (t : Fin cfg0.N) : iblk m c 3 t = V m c main_arg3 := by
  obtain ⟨e0, e1⟩ := idx3 t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 8 + 1 * (y 0).val = (y 0).val; rw [e0]; omega
  | ⟨1, _⟩ => show win0_3.index t (1 : Fin 2) * 64 + 1 * (y 1).val = (y 1).val; rw [e1]; omega
/-- Window 4 stages its whole array at every point. -/
theorem iblk4 (c : Dev nD) (t : Fin cfg0.N) : iblk m c 4 t = V m c main_arg4 := by
  obtain ⟨e0, e1, e2⟩ := idx4 t
  funext y
  show V m c main_arg4 (((cfg0.win 4).blk t).view.emb y) = V m c main_arg4 y
  refine congrArg (V m c main_arg4) (funext fun a => Fin.ext ?_)
  match a with
  | ⟨0, _⟩ => show win0_4.index t (0 : Fin 3) * 8 + 1 * (y 0).val = (y 0).val; rw [e0]; omega
  | ⟨1, _⟩ => show win0_4.index t (1 : Fin 3) * 64 + 1 * (y 1).val = (y 1).val; rw [e1]; omega
  | ⟨2, _⟩ => show win0_4.index t (2 : Fin 3) * 64 + 1 * (y 2).val = (y 2).val; rw [e2]; omega
/-- Window 5 stages its whole array at every point. -/
theorem iblk5 (c : Dev nD) (t : Fin cfg0.N) : iblk m c 5 t = V m c main_arg5 := by
  obtain ⟨e0, e1⟩ := idx5 t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 8 + 1 * (y 0).val = (y 0).val; rw [e0]; omega
  | ⟨1, _⟩ => show win0_5.index t (1 : Fin 2) * 64 + 1 * (y 1).val = (y 1).val; rw [e1]; omega
/-- Window 6 stages its whole array at every point. -/
theorem iblk6 (c : Dev nD) (t : Fin cfg0.N) : iblk m c 6 t = V m c main_arg6 := by
  obtain ⟨e0, e1, e2⟩ := idx6 t
  funext y
  show V m c main_arg6 (((cfg0.win 6).blk t).view.emb y) = V m c main_arg6 y
  refine congrArg (V m c main_arg6) (funext fun a => Fin.ext ?_)
  match a with
  | ⟨0, _⟩ => show win0_6.index t (0 : Fin 3) * 8 + 1 * (y 0).val = (y 0).val; rw [e0]; omega
  | ⟨1, _⟩ => show win0_6.index t (1 : Fin 3) * 64 + 1 * (y 1).val = (y 1).val; rw [e1]; omega
  | ⟨2, _⟩ => show win0_6.index t (2 : Fin 3) * 64 + 1 * (y 2).val = (y 2).val; rw [e2]; omega
/-- Window 7 stages its whole array at every point. -/
theorem iblk7 (c : Dev nD) (t : Fin cfg0.N) : iblk m c 7 t = V m c main_arg7 := by
  obtain ⟨e0, e1⟩ := idx7 t
  funext y
  show V m c main_arg7 (((cfg0.win 7).blk t).view.emb y) = V m c main_arg7 y
  refine congrArg (V m c main_arg7) (funext fun a => Fin.ext ?_)
  match a with
  | ⟨0, _⟩ => show win0_7.index t (0 : Fin 2) * 8 + 1 * (y 0).val = (y 0).val; rw [e0]; omega
  | ⟨1, _⟩ => show win0_7.index t (1 : Fin 2) * 64 + 1 * (y 1).val = (y 1).val; rw [e1]; omega
/-- Window 8 stages its whole array at every point. -/
theorem iblk8 (c : Dev nD) (t : Fin cfg0.N) : iblk m c 8 t = V m c main_v2 := by
  obtain ⟨e0, e1⟩ := idx8 t
  funext y
  show V m c main_v2 (((cfg0.win 8).blk t).view.emb y) = V m c main_v2 y
  refine congrArg (V m c main_v2) (funext fun a => Fin.ext ?_)
  match a with
  | ⟨0, _⟩ => show win0_8.index t (0 : Fin 2) * 8 + 1 * (y 0).val = (y 0).val; rw [e0]; omega
  | ⟨1, _⟩ => show win0_8.index t (1 : Fin 2) * 64 + 1 * (y 1).val = (y 1).val; rw [e1]; omega
/-- Window 9 stages its whole array at every point. -/
theorem iblk9 (c : Dev nD) (t : Fin cfg0.N) : iblk m c 9 t = V m c main_arg9 := by
  obtain ⟨e0, e1⟩ := idx9 t
  funext y
  show V m c main_arg9 (((cfg0.win 9).blk t).view.emb y) = V m c main_arg9 y
  refine congrArg (V m c main_arg9) (funext fun a => Fin.ext ?_)
  match a with
  | ⟨0, _⟩ => show win0_9.index t (0 : Fin 2) * 8 + 1 * (y 0).val = (y 0).val; rw [e0]; omega
  | ⟨1, _⟩ => show win0_9.index t (1 : Fin 2) * 1 + 1 * (y 1).val = (y 1).val; rw [e1]; omega

/-! ## Output window 10: the network's output -/

/-- Lane `q` of point `t`'s block of output window 10 is batch row `lane t q` of the array. -/
theorem emb10 (t : Fin cfg0.N) (d : Fin 8) (q : Fin 1024) : ((cfg0.win 10).blk t).view.emb (ix2 d q) = ix2 d (lane t q) := by
  obtain ⟨e0, e1⟩ := idx10 t
  funext a
  apply Fin.ext
  match a with
  | ⟨0, _⟩ => show win0_10.index t (0 : Fin 2) * 8 + 1 * d.val = d.val; rw [e0]; omega
  | ⟨1, _⟩ => show win0_10.index t (1 : Fin 2) * 1024 + 1 * q.val = t.val * 1024 + q.val; rw [e1]; omega

/-- WHAT POINT `t` WRITES BACK through window 10 is block `t` of the array function of the arrays the region finds. -/
theorem flushed10 (c : Dev nD) (t : Fin cfg0.N) :
    (dats m 0 c).flushed 10 t = ((cfg0.win 10).blk t).view.read (Elt Ideal) (resOf m c) := by
  show (cfg0.win 10).cut (grid0.coords t) ((dats m 0 c).after 10 t) = _
  rw [after0_10]
  funext j
  obtain ⟨d, q, rfl⟩ : ∃ (d : Fin 8) (q : Fin 1024), j = ix2 d q := ⟨j 0, j 1, eq_ix2 j⟩
  show out0_10 (iblk m c 0 t) (iblk m c 1 t) (iblk m c 2 t) (iblk m c 3 t) (iblk m c 4 t) (iblk m c 5 t) (iblk m c 6 t)
      (iblk m c 7 t) (iblk m c 8 t) (iblk m c 9 t) (ix2 d q) = resOf m c (((cfg0.win 10).blk t).view.emb (ix2 d q))
  rw [emb10 t d q, iblk2 m c t, iblk3 m c t, iblk4 m c t, iblk5 m c t, iblk6 m c t, iblk7 m c t, iblk8 m c t, iblk9 m c t]
  refine (out0_10_apply (iblk m c 0 t) (iblk m c 1 t) (V m c main_arg2) (V m c main_arg3) (V m c main_arg4) (V m c main_arg5)
    (V m c main_arg6) (V m c main_arg7) (V m c main_v2) (V m c main_arg9) d q).trans ?_
  exact blockRes_lane (V m c main_v0) (V m c main_v1) (V m c main_arg2) (V m c main_arg3) (V m c main_arg4) (V m c main_arg5)
    (V m c main_arg6) (V m c main_arg7) (V m c main_v2) (V m c main_arg9) t (iblk m c 0 t) (iblk m c 1 t) (iblk_z m c t) (iblk_x m c t) d q

/-- An index of the array is in point `t`'s block of window 10 iff each coordinate is in the block's range. -/
theorem mem_blk10 (t : Fin cfg0.N) (i : S8x131072.Idx) :
    i ∈ ((cfg0.win 10).blk t).view.set ↔ ∀ a : Fin 2, win0_10.index t a * S8x1024.size a ≤ (i a).val
      ∧ (i a).val < win0_10.index t a * S8x1024.size a + S8x1024.size a := by
  show i ∈ ((View.whole main_v3_0).slice (win0_10.rect t)).set ↔ _
  rw [View.set_slice_whole, Rect.mem_set_unit]
  exact Iff.rfl

/-- Every entry of the array is written back by the point that holds its batch row. -/
theorem cover10 (i : S8x131072.Idx) :
    ∃ t : Fin cfg0.N, (cfg0.win 10).flush t = true ∧ i ∈ ((cfg0.win 10).blk t).view.set := by
  have hi0 : (i 0).val < 8 := (i 0).isLt
  have hi1 : (i 1).val < 131072 := (i 1).isLt
  have hN : cfg0.N = 128 := N_0
  have ht : (i 1).val / 1024 < cfg0.N := by omega
  obtain ⟨e0, e1⟩ := idx10 ⟨(i 1).val / 1024, ht⟩
  refine ⟨⟨(i 1).val / 1024, ht⟩, flush0_10 _, ?_⟩
  rw [mem_blk10]
  intro a
  match a with
  | ⟨0, _⟩ =>
    show win0_10.index ⟨(i 1).val / 1024, ht⟩ (0 : Fin 2) * 8 ≤ (i 0).val
      ∧ (i 0).val < win0_10.index ⟨(i 1).val / 1024, ht⟩ (0 : Fin 2) * 8 + 8
    rw [e0]; omega
  | ⟨1, _⟩ =>
    show win0_10.index ⟨(i 1).val / 1024, ht⟩ (1 : Fin 2) * 1024 ≤ (i 1).val
      ∧ (i 1).val < win0_10.index ⟨(i 1).val / 1024, ht⟩ (1 : Fin 2) * 1024 + 1024
    rw [e1]; show (i 1).val / 1024 * 1024 ≤ (i 1).val ∧ (i 1).val < (i 1).val / 1024 * 1024 + 1024; omega

/-- THE ARRAY after the region: the array function of the arrays the region finds, at every entry. -/
theorem final_res (c : Dev nD) : (dats m 0 c).arrAt 10 cfg0.N = resOf m c :=
  (dats m 0 c).arrAt_eq_of_cover 10 (resOf m c) (fun t _ => flushed10 m c t) cover10

/-! ## Output window 11: the derivative -/

/-- Lane `q` of point `t`'s block of output window 11 is batch row `lane t q` of the array. -/
theorem emb11 (t : Fin cfg0.N) (d : Fin 8) (q : Fin 1024) : ((cfg0.win 11).blk t).view.emb (ix2 d q) = ix2 d (lane t q) := by
  obtain ⟨e0, e1⟩ := idx11 t
  funext a
  apply Fin.ext
  match a with
  | ⟨0, _⟩ => show win0_11.index t (0 : Fin 2) * 8 + 1 * d.val = d.val; rw [e0]; omega
  | ⟨1, _⟩ => show win0_11.index t (1 : Fin 2) * 1024 + 1 * q.val = t.val * 1024 + q.val; rw [e1]; omega

/-- WHAT POINT `t` WRITES BACK through window 11 is block `t` of the array function of the arrays the region finds. -/
theorem flushed11 (c : Dev nD) (t : Fin cfg0.N) :
    (dats m 0 c).flushed 11 t = ((cfg0.win 11).blk t).view.read (Elt Ideal) (doutOf m c) := by
  show (cfg0.win 11).cut (grid0.coords t) ((dats m 0 c).after 11 t) = _
  rw [after0_11]
  funext j
  obtain ⟨d, q, rfl⟩ : ∃ (d : Fin 8) (q : Fin 1024), j = ix2 d q := ⟨j 0, j 1, eq_ix2 j⟩
  show out0_11 (iblk m c 0 t) (iblk m c 1 t) (iblk m c 2 t) (iblk m c 3 t) (iblk m c 4 t) (iblk m c 5 t) (iblk m c 6 t)
      (iblk m c 7 t) (iblk m c 8 t) (iblk m c 9 t) (ix2 d q) = doutOf m c (((cfg0.win 11).blk t).view.emb (ix2 d q))
  rw [emb11 t d q, iblk2 m c t, iblk3 m c t, iblk4 m c t, iblk5 m c t, iblk6 m c t, iblk7 m c t, iblk8 m c t, iblk9 m c t]
  refine (out0_11_apply (iblk m c 0 t) (iblk m c 1 t) (V m c main_arg2) (V m c main_arg3) (V m c main_arg4) (V m c main_arg5)
    (V m c main_arg6) (V m c main_arg7) (V m c main_v2) (V m c main_arg9) d q).trans ?_
  exact blockDout_lane (V m c main_v0) (V m c main_v1) (V m c main_arg2) (V m c main_arg3) (V m c main_arg4) (V m c main_arg5)
    (V m c main_arg6) (V m c main_arg7) (V m c main_v2) t (iblk m c 0 t) (iblk m c 1 t) (iblk_z m c t) (iblk_x m c t) d q

/-- An index of the array is in point `t`'s block of window 11 iff each coordinate is in the block's range. -/
theorem mem_blk11 (t : Fin cfg0.N) (i : S8x131072.Idx) :
    i ∈ ((cfg0.win 11).blk t).view.set ↔ ∀ a : Fin 2, win0_11.index t a * S8x1024.size a ≤ (i a).val
      ∧ (i a).val < win0_11.index t a * S8x1024.size a + S8x1024.size a := by
  show i ∈ ((View.whole main_v3_1).slice (win0_11.rect t)).set ↔ _
  rw [View.set_slice_whole, Rect.mem_set_unit]
  exact Iff.rfl

/-- Every entry of the array is written back by the point that holds its batch row. -/
theorem cover11 (i : S8x131072.Idx) :
    ∃ t : Fin cfg0.N, (cfg0.win 11).flush t = true ∧ i ∈ ((cfg0.win 11).blk t).view.set := by
  have hi0 : (i 0).val < 8 := (i 0).isLt
  have hi1 : (i 1).val < 131072 := (i 1).isLt
  have hN : cfg0.N = 128 := N_0
  have ht : (i 1).val / 1024 < cfg0.N := by omega
  obtain ⟨e0, e1⟩ := idx11 ⟨(i 1).val / 1024, ht⟩
  refine ⟨⟨(i 1).val / 1024, ht⟩, flush0_11 _, ?_⟩
  rw [mem_blk11]
  intro a
  match a with
  | ⟨0, _⟩ =>
    show win0_11.index ⟨(i 1).val / 1024, ht⟩ (0 : Fin 2) * 8 ≤ (i 0).val
      ∧ (i 0).val < win0_11.index ⟨(i 1).val / 1024, ht⟩ (0 : Fin 2) * 8 + 8
    rw [e0]; omega
  | ⟨1, _⟩ =>
    show win0_11.index ⟨(i 1).val / 1024, ht⟩ (1 : Fin 2) * 1024 ≤ (i 1).val
      ∧ (i 1).val < win0_11.index ⟨(i 1).val / 1024, ht⟩ (1 : Fin 2) * 1024 + 1024
    rw [e1]; show (i 1).val / 1024 * 1024 ≤ (i 1).val ∧ (i 1).val < (i 1).val / 1024 * 1024 + 1024; omega

/-- THE ARRAY after the region: the array function of the arrays the region finds, at every entry. -/
theorem final_dout (c : Dev nD) : (dats m 0 c).arrAt 11 cfg0.N = doutOf m c :=
  (dats m 0 c).arrAt_eq_of_cover 11 (doutOf m c) (fun t _ => flushed11 m c t) cover11

end Cert.KernelIdeal.Arr

end
-- ==== Proof.HostBefore.lean ====
/-
  The three arrays the host prepares before the region, read at an index: the two [131072, 8] inputs enter the
  region transposed, so that batch rows lie along the lanes, and the output layer's [8, 1, 64] weights enter with
  their unit axis dropped.
-/
import proofs.«429064_j39075612459501_4_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostBefore

open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F] (m : (ℓ : Loc nD τ sig) → Buf (Elt F) ℓ)

/-- The shared inputs as the region finds them: entry (k, b) is input (b, k). -/
theorem V_zT (c : Dev nD) (k : Fin 8) (b : Fin 131072) :
    V m c main_v0 (ix2 k b) = m ((c : Thread nD τ).loc main_arg0) (ix2 b k) := by
  have e : (V m c main_v0 : S8x131072.Idx → Elt F .f32)
      = transpose S8x131072 [1, 0] (m ((c : Thread nD τ).loc main_arg0)) transposes_S131072x8_S8x131072_1_0 := by
    show StableHlo.after hostOps0 (fun b => m (c, b)) (Proc.devRef .tc main_v0) = _
    after_results
  refine (congrFun e (ix2 k b)).trans ?_
  exact transpose_apply [1, 0] _ transposes_S131072x8_S8x131072_1_0 (ix2 k b) (ix2 b k) (fun a => match a with
    | ⟨0, _⟩ => rfl
    | ⟨1, _⟩ => rfl)

/-- The private inputs as the region finds them: entry (d, b) is input (b, d). -/
theorem V_xT (c : Dev nD) (d : Fin 8) (b : Fin 131072) :
    V m c main_v1 (ix2 d b) = m ((c : Thread nD τ).loc main_arg1) (ix2 b d) := by
  have e : (V m c main_v1 : S8x131072.Idx → Elt F .f32)
      = transpose S8x131072 [1, 0] (m ((c : Thread nD τ).loc main_arg1)) transposes_S131072x8_S8x131072_1_0 := by
    show StableHlo.after hostOps0 (fun b => m (c, b)) (Proc.devRef .tc main_v1) = _
    after_results
  refine (congrFun e (ix2 d b)).trans ?_
  exact transpose_apply [1, 0] _ transposes_S131072x8_S8x131072_1_0 (ix2 d b) (ix2 b d) (fun a => match a with
    | ⟨0, _⟩ => rfl
    | ⟨1, _⟩ => rfl)

/-- The output layer's weights as the region finds them: entry (d, h) is weight (d, 0, h). -/
theorem V_wo (c : Dev nD) (d : Fin 8) (h : Fin 64) :
    V m c main_v2 (ix2 d h) = m ((c : Thread nD τ).loc main_arg8) (ix3 d (0 : Fin 1) h) := by
  have e : (V m c main_v2 : S8x64.Idx → Elt F .f32)
      = shapeCast S8x64 (m ((c : Thread nD τ).loc main_arg8)) shapeCasts_S8x1x64_S8x64 := by
    show StableHlo.after hostOps0 (fun b => m (c, b)) (Proc.devRef .tc main_v2) = _
    after_results
    rfl
  refine (congrFun e (ix2 d h)).trans ?_
  refine shapeCast_apply _ shapeCasts_S8x1x64_S8x64 (ix2 d h) (ix3 d (0 : Fin 1) h) ?_
  rw [Shape.rowMajor_val_three, Shape.rowMajor_val_two]
  show (d.val * 1 + 0) * 64 + h.val = d.val * 64 + h.val
  omega

end Cert.KernelIdeal.HostBefore

end
-- ==== Proof.HostAfter.lean ====
/-
  What the host does with the region's two output arrays: the first is transposed back to batch-major order and
  given a unit middle axis; the second goes through the absolute value and the logarithm, entry by entry, and is
  summed over all its entries from zero.  Each result is stated as those operations of the array the region left.
-/
import proofs.«429064_j39075612459501_4_alg».proof.Proof.Gen.KernelIdeal.Frame
import Idealize.ShloMosaic.Lib.Pipeline.Value
import Idealize.ShloMosaic.Lib.StableHlo.Run

noncomputable section

namespace Cert.KernelIdeal.HostAfter

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ)

/-- The two results are not arrays of the pipeline: the frame run states them through the lines after the region. -/
theorem res_rest : main_v5 ∈ Pipeline.restRefs sig cfg0.spec ∧ main_v8 ∈ Pipeline.restRefs sig cfg0.spec :=
  ⟨Pipeline.mem_restRefs_of main_v5 (by decide) (by decide), Pipeline.mem_restRefs_of main_v8 (by decide) (by decide)⟩

/-- The first result: the region's first output array, transposed and given a unit middle axis. -/
theorem tail_res (c : Dev nD) :
    Pipeline.afterTail₀ cfgs (dats m) 0 (V0 m) [hostOps1] c main_v5
      = broadcastInDim S131072x1x8 ![0, 2] bcast_S131072x8_S131072x1x8_0_2
          (transpose S131072x8 [1, 0] ((dats m 0 c).arrAt 10 cfg0.N) transposes_S8x131072_S131072x8_1_0) := by
  unfold Pipeline.afterTail₀
  show StableHlo.after hostOps1 _ (Proc.devRef .tc main_v5) = _
  after_results
  rw [Pipeline.withArrays_arr spec0 launch0.win.arr_inj c _ _ 10]

/-- The second result: the sum from zero, over every entry of the region's second output array, of the logarithm of
    its absolute value. -/
theorem tail_sum (c : Dev nD) :
    Pipeline.afterTail₀ cfgs (dats m) 0 (V0 m) [hostOps1] c main_v8
      = Host.reduceAdd (Host.log (Host.absf ((dats m 0 c).arrAt 11 cfg0.N))) (constant S_ .f32 0x00000000#32)
          reducesTo_S8x131072_S_d0_1 h_S_ := by
  unfold Pipeline.afterTail₀
  show StableHlo.after hostOps1 _ (Proc.devRef .tc main_v8) = _
  after_results
  rw [Pipeline.withArrays_arr spec0 launch0.win.arr_inj c _ _ 11]

end Cert.KernelIdeal.HostAfter

end
-- ==== Proof.RefStages.lean ====
/-
  The reference's two [8, 131072] arrays — the network's output and its derivative, for every latent dimension and
  batch row — read at an index: entry (d, b) is the one-dimension, one-row network of the specification applied to row
  `b`'s eight shared inputs and its private input for dimension `d`, with dimension `d`'s weights and biases.

  The reference evaluates the network stage by stage on [8, 131072, 64] arrays.  Each stage below is read at the
  index (d, b, h) and identified with the specification's function of the same name; every later stage rewrites with
  the earlier ones under its contraction sum.  The products and sums stand in the reference's own order, so each
  identification is definitional once the stage's operands are read at their indices.
-/
import proofs.«429064_j39075612459501_4_alg».proof.Proof.Gen.ReferenceIdeal.Read
import proofs.«429064_j39075612459501_4_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 : (⟨S131072x8, .f32⟩ : BufTy).Contents (Elt Ideal)) (x2 : (⟨S8x64x9, .f32⟩ : BufTy).Contents (Elt Ideal))
  (x3 : (⟨S8x64, .f32⟩ : BufTy).Contents (Elt Ideal)) (x4 : (⟨S8x64x64, .f32⟩ : BufTy).Contents (Elt Ideal))
  (x5 : (⟨S8x64, .f32⟩ : BufTy).Contents (Elt Ideal)) (x6 : (⟨S8x64x64, .f32⟩ : BufTy).Contents (Elt Ideal))
  (x7 : (⟨S8x64, .f32⟩ : BufTy).Contents (Elt Ideal)) (x8 : (⟨S8x1x64, .f32⟩ : BufTy).Contents (Elt Ideal))
  (x9 : (⟨S8x1, .f32⟩ : BufTy).Contents (Elt Ideal))

/-! ## The network's arguments, per latent dimension and batch row -/

/-- Row `b`'s nine inputs for dimension `d`: its eight shared coordinates, then its private one. -/
abbrev xin (d : Fin 8) (b : Fin 131072) : Fin 9 → EReal :=
  Cert.Mlp.inp (fun k => x0 (ix2 b k)) (x1 (ix2 b d))
/-- Dimension `d`'s first weight matrix. -/
abbrev wt0 (d : Fin 8) : Fin 64 → Fin 9 → EReal := fun h k => x2 (ix3 d h k)
/-- Dimension `d`'s bias vector out of a [8, 64] array. -/
abbrev bias (c : (⟨S8x64, .f32⟩ : BufTy).Contents (Elt Ideal)) (d : Fin 8) : Fin 64 → EReal := fun h => c (ix2 d h)
/-- Dimension `d`'s square weight matrix out of a [8, 64, 64] array. -/
abbrev wsq (w : (⟨S8x64x64, .f32⟩ : BufTy).Contents (Elt Ideal)) (d : Fin 8) : Fin 64 → Fin 64 → EReal :=
  fun g h => w (ix3 d g h)

/-! ## The concatenated input -/

/-- The joined input array at (d, b, k): a shared coordinate of row `b` for k < 8, the private one at k = 8. -/
theorem v4_at (d : Fin 8) (b : Fin 131072) (k : Fin 9) :
    val_main_v4 (F := Ideal) x0 x1 (ix3 d b k) = xin x0 x1 d b k := by
  unfold xin Cert.Mlp.inp val_main_v4
  by_cases hk : k.val < 8
  · rw [dif_pos hk,
      concatenate_pair_apply_left (t := S8x131072x9) (s₁ := S8x131072x8) (s₂ := S8x131072x1) (2 : Fin 3) _ _ _ (ix3 d b k) rfl (ix3 d b (⟨k.val, hk⟩ : Fin 8))
        (fun a => match a with | ⟨0, _⟩ => rfl | ⟨1, _⟩ => rfl | ⟨2, _⟩ => rfl),
      val_main_v1_apply, val_main_v0_apply]
    exact congrArg x0 (funext fun a => match a with | ⟨0, _⟩ => rfl | ⟨1, _⟩ => rfl)
  · rw [dif_neg hk,
      concatenate_pair_apply_right (t := S8x131072x9) (s₁ := S8x131072x8) (s₂ := S8x131072x1) (2 : Fin 3) _ _ _ (ix3 d b k) rfl rfl (ix3 d b (0 : Fin 1))
        (fun a => match a with
          | ⟨0, _⟩ => fun _ => rfl
          | ⟨1, _⟩ => fun _ => rfl
          | ⟨2, _⟩ => fun h => absurd rfl h)
        (by have := k.isLt; show 0 + 8 = k.val; omega),
      val_main_v3_apply, val_main_v2_apply]
    exact congrArg x1 (funext fun a => match a with | ⟨0, _⟩ => rfl | ⟨1, _⟩ => rfl)

/-! ## First layer -/

/-- The first layer's pre-activation at (d, b, h). -/
theorem v8_at (d : Fin 8) (b : Fin 131072) (h : Fin 64) :
    val_main_v8 (F := Ideal) x0 x1 x2 x3 (ix3 d b h)
      = Cert.Mlp.pre0 (xin x0 x1 d b) (wt0 x2 d) (bias x3 d) h := by
  have el : ∀ k : Fin 9, lidx_main_v5 (ix3 d b h) k = ix3 d b k := fun k => funext fun a => match a with | ⟨0, _⟩ => rfl | ⟨1, _⟩ => rfl | ⟨2, _⟩ => rfl
  have er : ∀ k : Fin 9, ridx_main_v5 (ix3 d b h) k = ix3 d h k := fun k => funext fun a => match a with | ⟨0, _⟩ => rfl | ⟨1, _⟩ => rfl | ⟨2, _⟩ => rfl
  have eb : idx_main_v6 (idx_main_v7 (ix3 d b h)) = ix2 d h := funext fun a => match a with | ⟨0, _⟩ => rfl | ⟨1, _⟩ => rfl
  rw [val_main_v8_apply, val_main_v5_apply, val_main_v7_apply, val_main_v6_apply, eb]
  unfold Cert.Mlp.pre0
  refine congrArg (· + x3 (ix2 d h)) (Finset.sum_congr rfl fun k _ => ?_)
  rw [el k, er k, v4_at]

/-- The first layer's activation at (d, b, h). -/
theorem v13_at (d : Fin 8) (b : Fin 131072) (h : Fin 64) :
    val_main_v13 (F := Ideal) x0 x1 x2 x3 (ix3 d b h)
      = Cert.Mlp.lrelu (Cert.Mlp.pre0 (xin x0 x1 d b) (wt0 x2 d) (bias x3 d) h) := by
  rw [val_main_v13_apply, val_main_v10_apply, val_main_v12_apply, val_main_v9_apply, val_main_cst_apply,
    val_main_v11_apply, val_main_cst_0_apply, v8_at]
  rfl

/-- The first layer's slope at (d, b, h). -/
theorem v19_at (d : Fin 8) (b : Fin 131072) (h : Fin 64) :
    val_main_v19 (F := Ideal) x0 x1 x2 x3 (ix3 d b h)
      = Cert.Mlp.dlrelu (Cert.Mlp.pre0 (xin x0 x1 d b) (wt0 x2 d) (bias x3 d) h) := by
  rw [val_main_v19_apply, val_main_v18_apply, val_main_v17_apply, val_main_cst_1_apply, val_main_call1_v0_apply,
    val_main_cst_2_apply, val_main_call1_v1_apply, val_main_cst_3_apply, v8_at]
  rfl

/-- The first layer's tangent at (d, b, h): the private coordinate's weight column times the slope. -/
theorem v21_at (d : Fin 8) (b : Fin 131072) (h : Fin 64) :
    val_main_v21 (F := Ideal) x0 x1 x2 x3 (ix3 d b h)
      = Cert.Mlp.tan0 (xin x0 x1 d b) (wt0 x2 d) (bias x3 d) h := by
  have ew : idx_main_v14 (idx_main_v15 (idx_main_v16 (idx_main_v20 (ix3 d b h)))) = ix3 d h (8 : Fin 9) :=
    funext fun a => match a with
      | ⟨0, _⟩ => Fin.ext (by show (d.val * 64 + h.val) / 64 = d.val; omega)
      | ⟨1, _⟩ => Fin.ext (by show (d.val * 64 + h.val) / 1 % 64 = h.val; omega)
      | ⟨2, _⟩ => rfl
  rw [val_main_v21_apply, val_main_v20_apply, val_main_v16_apply, val_main_v15_apply, val_main_v14_apply, ew, v19_at]
  rfl

/-! ## Second layer -/

/-- The second layer's pre-activation at (d, b, g). -/
theorem v25_at (d : Fin 8) (b : Fin 131072) (g : Fin 64) :
    val_main_v25 (F := Ideal) x0 x1 x2 x3 x4 x5 (ix3 d b g) = Cert.Mlp.pre1 (xin x0 x1 d b) (wt0 x2 d) (bias x3 d) (wsq x4 d) (bias x5 d) g := by
  have el : ∀ k : Fin 64, lidx_main_v22 (ix3 d b g) k = ix3 d b k := fun k => funext fun a => match a with | ⟨0, _⟩ => rfl | ⟨1, _⟩ => rfl | ⟨2, _⟩ => rfl
  have er : ∀ k : Fin 64, ridx_main_v22 (ix3 d b g) k = ix3 d g k := fun k => funext fun a => match a with | ⟨0, _⟩ => rfl | ⟨1, _⟩ => rfl | ⟨2, _⟩ => rfl
  have eb : idx_main_v23 (idx_main_v24 (ix3 d b g)) = ix2 d g := funext fun a => match a with | ⟨0, _⟩ => rfl | ⟨1, _⟩ => rfl
  rw [val_main_v25_apply, val_main_v22_apply, val_main_v24_apply, val_main_v23_apply, eb]
  unfold Cert.Mlp.pre1
  refine congrArg (· + x5 (ix2 d g)) (Finset.sum_congr rfl fun k _ => ?_)
  rw [el k, er k, v13_at]

/-- The second layer's slope at (d, b, g). -/
theorem v29_at (d : Fin 8) (b : Fin 131072) (g : Fin 64) :
    val_main_v29 (F := Ideal) x0 x1 x2 x3 x4 x5 (ix3 d b g) = Cert.Mlp.dlrelu (Cert.Mlp.pre1 (xin x0 x1 d b) (wt0 x2 d) (bias x3 d) (wsq x4 d) (bias x5 d) g) := by
  rw [val_main_v29_apply, val_main_v28_apply, val_main_v27_apply, val_main_cst_4_apply, val_main_call2_v0_apply,
    val_main_cst_5_apply, val_main_call2_v1_apply, val_main_cst_6_apply, v25_at]
  rfl

/-- The second layer's tangent at (d, b, g). -/
theorem v30_at (d : Fin 8) (b : Fin 131072) (g : Fin 64) :
    val_main_v30 (F := Ideal) x0 x1 x2 x3 x4 x5 (ix3 d b g) = Cert.Mlp.tan1 (xin x0 x1 d b) (wt0 x2 d) (bias x3 d) (wsq x4 d) (bias x5 d) g := by
  have el : ∀ k : Fin 64, lidx_main_v26 (ix3 d b g) k = ix3 d b k := fun k => funext fun a => match a with | ⟨0, _⟩ => rfl | ⟨1, _⟩ => rfl | ⟨2, _⟩ => rfl
  have er : ∀ k : Fin 64, ridx_main_v26 (ix3 d b g) k = ix3 d g k := fun k => funext fun a => match a with | ⟨0, _⟩ => rfl | ⟨1, _⟩ => rfl | ⟨2, _⟩ => rfl
  rw [val_main_v30_apply, val_main_v26_apply, v29_at]
  unfold Cert.Mlp.tan1
  refine congrArg (· * Cert.Mlp.dlrelu (Cert.Mlp.pre1 (xin x0 x1 d b) (wt0 x2 d) (bias x3 d) (wsq x4 d) (bias x5 d) g)) (Finset.sum_congr rfl fun k _ => ?_)
  rw [el k, er k, v21_at]

/-- The second layer's activation at (d, b, g). -/
theorem v35_at (d : Fin 8) (b : Fin 131072) (g : Fin 64) :
    val_main_v35 (F := Ideal) x0 x1 x2 x3 x4 x5 (ix3 d b g) = Cert.Mlp.lrelu (Cert.Mlp.pre1 (xin x0 x1 d b) (wt0 x2 d) (bias x3 d) (wsq x4 d) (bias x5 d) g) := by
  rw [val_main_v35_apply, val_main_v32_apply, val_main_v34_apply, val_main_v31_apply, val_main_cst_7_apply,
    val_main_v33_apply, val_main_cst_8_apply, v25_at]
  rfl

/-! ## Third layer -/

/-- The third layer's pre-activation at (d, b, g). -/
theorem v39_at (d : Fin 8) (b : Fin 131072) (g : Fin 64) :
    val_main_v39 (F := Ideal) x0 x1 x2 x3 x4 x5 x6 x7 (ix3 d b g) = Cert.Mlp.pre2 (xin x0 x1 d b) (wt0 x2 d) (bias x3 d) (wsq x4 d) (bias x5 d) (wsq x6 d) (bias x7 d) g := by
  have el : ∀ k : Fin 64, lidx_main_v36 (ix3 d b g) k = ix3 d b k := fun k => funext fun a => match a with | ⟨0, _⟩ => rfl | ⟨1, _⟩ => rfl | ⟨2, _⟩ => rfl
  have er : ∀ k : Fin 64, ridx_main_v36 (ix3 d b g) k = ix3 d g k := fun k => funext fun a => match a with | ⟨0, _⟩ => rfl | ⟨1, _⟩ => rfl | ⟨2, _⟩ => rfl
  have eb : idx_main_v37 (idx_main_v38 (ix3 d b g)) = ix2 d g := funext fun a => match a with | ⟨0, _⟩ => rfl | ⟨1, _⟩ => rfl
  rw [val_main_v39_apply, val_main_v36_apply, val_main_v38_apply, val_main_v37_apply, eb]
  unfold Cert.Mlp.pre2
  refine congrArg (· + x7 (ix2 d g)) (Finset.sum_congr rfl fun k _ => ?_)
  rw [el k, er k, v35_at]

/-- The third layer's slope at (d, b, g). -/
theorem v43_at (d : Fin 8) (b : Fin 131072) (g : Fin 64) :
    val_main_v43 (F := Ideal) x0 x1 x2 x3 x4 x5 x6 x7 (ix3 d b g) = Cert.Mlp.dlrelu (Cert.Mlp.pre2 (xin x0 x1 d b) (wt0 x2 d) (bias x3 d) (wsq x4 d) (bias x5 d) (wsq x6 d) (bias x7 d) g) := by
  rw [val_main_v43_apply, val_main_v42_apply, val_main_v41_apply, val_main_cst_9_apply, val_main_call4_v0_apply,
    val_main_cst_10_apply, val_main_call4_v1_apply, val_main_cst_11_apply, v39_at]
  rfl

/-- The third layer's tangent at (d, b, g). -/
theorem v44_at (d : Fin 8) (b : Fin 131072) (g : Fin 64) :
    val_main_v44 (F := Ideal) x0 x1 x2 x3 x4 x5 x6 x7 (ix3 d b g) = Cert.Mlp.tan2 (xin x0 x1 d b) (wt0 x2 d) (bias x3 d) (wsq x4 d) (bias x5 d) (wsq x6 d) (bias x7 d) g := by
  have el : ∀ k : Fin 64, lidx_main_v40 (ix3 d b g) k = ix3 d b k := fun k => funext fun a => match a with | ⟨0, _⟩ => rfl | ⟨1, _⟩ => rfl | ⟨2, _⟩ => rfl
  have er : ∀ k : Fin 64, ridx_main_v40 (ix3 d b g) k = ix3 d g k := fun k => funext fun a => match a with | ⟨0, _⟩ => rfl | ⟨1, _⟩ => rfl | ⟨2, _⟩ => rfl
  rw [val_main_v44_apply, val_main_v40_apply, v43_at]
  unfold Cert.Mlp.tan2
  refine congrArg (· * Cert.Mlp.dlrelu (Cert.Mlp.pre2 (xin x0 x1 d b) (wt0 x2 d) (bias x3 d) (wsq x4 d) (bias x5 d) (wsq x6 d) (bias x7 d) g)) (Finset.sum_congr rfl fun k _ => ?_)
  rw [el k, er k, v30_at]

/-- The third layer's activation at (d, b, g). -/
theorem v49_at (d : Fin 8) (b : Fin 131072) (g : Fin 64) :
    val_main_v49 (F := Ideal) x0 x1 x2 x3 x4 x5 x6 x7 (ix3 d b g) = Cert.Mlp.lrelu (Cert.Mlp.pre2 (xin x0 x1 d b) (wt0 x2 d) (bias x3 d) (wsq x4 d) (bias x5 d) (wsq x6 d) (bias x7 d) g) := by
  rw [val_main_v49_apply, val_main_v46_apply, val_main_v48_apply, val_main_v45_apply, val_main_cst_12_apply,
    val_main_v47_apply, val_main_cst_13_apply, v39_at]
  rfl

/-! ## Output layer -/

/-- The output before the reshape, at (d, b, 0). -/
theorem v53_at (d : Fin 8) (b : Fin 131072) :
    val_main_v53 (F := Ideal) x0 x1 x2 x3 x4 x5 x6 x7 x8 x9 (ix3 d b (0 : Fin 1))
      = Cert.Mlp.res (xin x0 x1 d b) (wt0 x2 d) (bias x3 d) (wsq x4 d) (bias x5 d) (wsq x6 d) (bias x7 d) (fun h => x8 (ix3 d (0 : Fin 1) h)) (x9 (ix2 d (0 : Fin 1))) := by
  have el : ∀ k : Fin 64, lidx_main_v50 (ix3 d b (0 : Fin 1)) k = ix3 d b k := fun k => funext fun a => match a with | ⟨0, _⟩ => rfl | ⟨1, _⟩ => rfl | ⟨2, _⟩ => rfl
  have er : ∀ k : Fin 64, ridx_main_v50 (ix3 d b (0 : Fin 1)) k = ix3 d (0 : Fin 1) k := fun k => funext fun a => match a with | ⟨0, _⟩ => rfl | ⟨1, _⟩ => rfl | ⟨2, _⟩ => rfl
  have eb : idx_main_v51 (idx_main_v52 (ix3 d b (0 : Fin 1))) = ix2 d (0 : Fin 1) := funext fun a => match a with | ⟨0, _⟩ => rfl | ⟨1, _⟩ => rfl
  rw [val_main_v53_apply, val_main_v50_apply, val_main_v52_apply, val_main_v51_apply, eb]
  unfold Cert.Mlp.res
  refine congrArg (· + x9 (ix2 d (0 : Fin 1))) (Finset.sum_congr rfl fun k _ => ?_)
  rw [el k, er k, v49_at]

/-- The derivative before the reshape, at (d, b, 0). -/
theorem v54_at (d : Fin 8) (b : Fin 131072) :
    val_main_v54 (F := Ideal) x0 x1 x2 x3 x4 x5 x6 x7 x8 (ix3 d b (0 : Fin 1))
      = Cert.Mlp.dout (xin x0 x1 d b) (wt0 x2 d) (bias x3 d) (wsq x4 d) (bias x5 d) (wsq x6 d) (bias x7 d) (fun h => x8 (ix3 d (0 : Fin 1) h)) := by
  have el : ∀ k : Fin 64, lidx_main_v54 (ix3 d b (0 : Fin 1)) k = ix3 d b k := fun k => funext fun a => match a with | ⟨0, _⟩ => rfl | ⟨1, _⟩ => rfl | ⟨2, _⟩ => rfl
  have er : ∀ k : Fin 64, ridx_main_v54 (ix3 d b (0 : Fin 1)) k = ix3 d (0 : Fin 1) k := fun k => funext fun a => match a with | ⟨0, _⟩ => rfl | ⟨1, _⟩ => rfl | ⟨2, _⟩ => rfl
  rw [val_main_v54_apply]
  unfold Cert.Mlp.dout
  refine Finset.sum_congr rfl fun k _ => ?_
  rw [el k, er k, v44_at]

/-- Dropping the unit axis: the [8, 131072] index (d, b) reads the [8, 131072, 1] array at (d, b, 0). -/
theorem reshape_idx (d : Fin 8) (b : Fin 131072) : idx_main_v56 (ix2 d b) = ix3 d b (0 : Fin 1) :=
  funext fun a => match a with
    | ⟨0, _⟩ => Fin.ext (by show (d.val * 131072 + b.val) / 131072 = d.val; omega)
    | ⟨1, _⟩ => Fin.ext (by show (d.val * 131072 + b.val) / 1 % 131072 = b.val; omega)
    | ⟨2, _⟩ => rfl

/-- Entry (d, b) of the reference's output array is the specification's network output. -/
theorem ref_res (d : Fin 8) (b : Fin 131072) :
    val_main_v56 (F := Ideal) x0 x1 x2 x3 x4 x5 x6 x7 x8 x9 (ix2 d b)
      = Cert.Mlp.res (Cert.Mlp.inp (fun k => x0 (ix2 b k)) (x1 (ix2 b d))) (fun h k => x2 (ix3 d h k)) (fun h => x3 (ix2 d h))
          (fun g h => x4 (ix3 d g h)) (fun g => x5 (ix2 d g)) (fun g h => x6 (ix3 d g h)) (fun g => x7 (ix2 d g))
          (fun h => x8 (ix3 d (0 : Fin 1) h)) (x9 (ix2 d (0 : Fin 1))) := by
  rw [val_main_v56_apply, reshape_idx, v53_at]

/-- Entry (d, b) of the reference's derivative array is the specification's derivative. -/
theorem ref_dout (d : Fin 8) (b : Fin 131072) :
    val_main_v55 (F := Ideal) x0 x1 x2 x3 x4 x5 x6 x7 x8 (ix2 d b)
      = Cert.Mlp.dout (Cert.Mlp.inp (fun k => x0 (ix2 b k)) (x1 (ix2 b d))) (fun h k => x2 (ix3 d h k)) (fun h => x3 (ix2 d h))
          (fun g h => x4 (ix3 d g h)) (fun g => x5 (ix2 d g)) (fun g h => x6 (ix3 d g h)) (fun g => x7 (ix2 d g))
          (fun h => x8 (ix3 d (0 : Fin 1) h)) := by
  rw [val_main_v55_apply, show idx_main_v55 (ix2 d b) = ix3 d b (0 : Fin 1) from reshape_idx d b, v54_at]

end Cert.ReferenceIdeal.RefValue

end
-- ==== Proof.Bridge.lean ====
/-
  The two sides meet.

  On the kernel's side the region leaves, in its two [8, 131072] output arrays, the specification's network output and
  derivative of the arrays it was launched on: the two transposed inputs, the weights and biases as given, the output
  weights with their unit axis dropped.  Read back through those host operations, entry (d, b) is the specification at
  batch row `b`'s eight shared inputs and private input `d`, under dimension `d`'s parameters — which is what the
  reference's two [8, 131072] stages hold at (d, b).  After that both programs do the same thing to the same arrays: a
  transpose and a unit axis for the first result; absolute value, logarithm and the sum of all entries from zero for the
  second.  Those shared operations are never opened: equal arrays go in, so equal results come out.
-/
import proofs.«429064_j39075612459501_4_alg».proof.Proof.KernelArray
import proofs.«429064_j39075612459501_4_alg».proof.Proof.HostBefore
import proofs.«429064_j39075612459501_4_alg».proof.Proof.HostAfter
import proofs.«429064_j39075612459501_4_alg».proof.Proof.RefStages

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Arr

variable (m : (ℓ : Loc nD τ sig) → Buf (Elt Ideal) ℓ)

/-- The region's first output array is the reference's output stage of the same ten arguments. -/
theorem res_eq (c : Dev nD) :
    resOf m c = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨d, b, rfl⟩ : ∃ (d : Fin 8) (b : Fin 131072), i = ix2 d b := ⟨i 0, i 1, eq_ix2 i⟩
  refine Eq.trans ?_ (Cert.ReferenceIdeal.RefValue.ref_res _ _ _ _ _ _ _ _ _ _ d b).symm
  show arrRes (V m c main_v0) (V m c main_v1) (V m c main_arg2) (V m c main_arg3) (V m c main_arg4) (V m c main_arg5)
    (V m c main_arg6) (V m c main_arg7) (V m c main_v2) (V m c main_arg9) (ix2 d b) = _
  unfold arrRes
  congr 1
  · congr 1
    · funext k; exact Cert.KernelIdeal.HostBefore.V_zT m c k b
    · exact Cert.KernelIdeal.HostBefore.V_xT m c d b
  · funext h; exact Cert.KernelIdeal.HostBefore.V_wo m c d h

/-- The region's second output array is the reference's derivative stage of the same arguments. -/
theorem dout_eq (c : Dev nD) :
    doutOf m c = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨d, b, rfl⟩ : ∃ (d : Fin 8) (b : Fin 131072), i = ix2 d b := ⟨i 0, i 1, eq_ix2 i⟩
  refine Eq.trans ?_ (Cert.ReferenceIdeal.RefValue.ref_dout _ _ _ _ _ _ _ _ _ d b).symm
  show arrDout (V m c main_v0) (V m c main_v1) (V m c main_arg2) (V m c main_arg3) (V m c main_arg4) (V m c main_arg5)
    (V m c main_arg6) (V m c main_arg7) (V m c main_v2) (ix2 d b) = _
  unfold arrDout
  congr 1
  · congr 1
    · funext k; exact Cert.KernelIdeal.HostBefore.V_zT m c k b
    · exact Cert.KernelIdeal.HostBefore.V_xT m c d b
  · funext h; exact Cert.KernelIdeal.HostBefore.V_wo m c d h

/-- THE FIRST RESULT as the kernel's program leaves it: the reference's first result of the same arguments. -/
theorem kernel_res (c : Dev nD) :
    Pipeline.afterTail₀ cfgs (dats m) 0 (V0 m) [hostOps1] c main_v5
      = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.KernelIdeal.HostAfter.tail_res, final_res, res_eq]
  rfl

/-- THE SECOND RESULT as the kernel's program leaves it: the reference's second result of the same arguments. -/
theorem kernel_sum (c : Dev nD) :
    Pipeline.afterTail₀ cfgs (dats m) 0 (V0 m) [hostOps1] c main_v8
      = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.KernelIdeal.HostAfter.tail_sum, final_dout, dout_eq]
  rfl

end Cert.KernelIdeal.Bridge

end
-- ==== Proof.lean ====
/-
  Eight small perceptrons and their derivatives: a Pallas kernel against its jnp reference, over the extended reals.

  For each of 8 latent dimensions `d` and each of 131072 batch rows `b`, a three-hidden-layer perceptron with leaky
  rectifiers (64 hidden units, 9 inputs: the row's eight shared coordinates and its private coordinate `d`) is
  evaluated together with its derivative along the private coordinate.  The first result is the outputs, laid out
  [131072, 1, 8]; the second is the sum over all (d, b) of the logarithm of the absolute value of the derivative.

  The kernel transposes the inputs so that batch rows lie along the lanes, cuts the batch axis into 128 blocks of 1024
  rows, and at each block runs the eight perceptrons one after the other as 64 × 1024 matrix products, storing each
  dimension's two rows of 1024 lanes.  The reference contracts whole [8, 131072, ·] arrays.  Entry by entry both are
  the same sums of the same products — the kernel multiplies weight-first, the reference activation-first, and only
  commutativity of the product joins them, a law that holds at the infinities too, so the inputs' finiteness is never
  used — and after that both programs apply the same host operations to equal arrays.

  The modules: the specification (one dimension, one row); the reference's two [8, 131072] stages at an index; one
  dimension's rows at a lane; a block entry by entry; the arrays after the region; the host operations before and
  after it; the two sides joined.  Here: the three frames, the idealization (the pass rewrote nothing), and the
  equality of results from the two runs.
-/
import proofs.«429064_j39075612459501_4_alg».proof.Defs
import proofs.«429064_j39075612459501_4_alg».proof.Proof.Gen.Kernel
import proofs.«429064_j39075612459501_4_alg».proof.Proof.Gen.Kernel.Frame
import proofs.«429064_j39075612459501_4_alg».proof.Proof.Gen.KernelIdeal
import proofs.«429064_j39075612459501_4_alg».proof.Proof.Gen.KernelIdeal.Frame
import proofs.«429064_j39075612459501_4_alg».proof.Proof.Gen.ReferenceIdeal
import proofs.«429064_j39075612459501_4_alg».proof.Proof.Gen.Pre_finite_inputs
import proofs.«429064_j39075612459501_4_alg».proof.Proof.Gen.ReferenceIdeal.Run
import proofs.«429064_j39075612459501_4_alg».proof.Proof.Gen.ReferenceIdeal.Read
import proofs.«429064_j39075612459501_4_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, and leaves its arguments as it found them. -/
theorem frame_k : Cert.frame_Kernel := fun m ρ _ => Cert.Kernel.Gen.frame m ρ
/-- So does the kernel read at the extended reals. -/
theorem frame_ki : Cert.frame_KernelIdeal := fun m ρ _ => Cert.KernelIdeal.Gen.frame m ρ
/-- The reference runs: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

section KernelRun

open Cert.KernelIdeal Cert.KernelIdeal.Gen

/-- The kernel's run at the extended reals: both results are the reference's stages of the kernel's own arguments, and
    the arguments end as they began. -/
theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v5) = Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread nD τ).loc main_v8) = Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v5 Cert.KernelIdeal.HostAfter.res_rest.1).trans (Cert.KernelIdeal.Bridge.kernel_res m c),
      ((h c).2 main_v8 Cert.KernelIdeal.HostAfter.res_rest.2).trans (Cert.KernelIdeal.Bridge.kernel_sum m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).1 2).trans (((dats m 0 c).arrAt_in 2 rfl _).trans ((A_eq m c 2).trans (V_main_arg2 m c)))),
      (((h c).1 3).trans (((dats m 0 c).arrAt_in 3 rfl _).trans ((A_eq m c 3).trans (V_main_arg3 m c)))),
      (((h c).1 4).trans (((dats m 0 c).arrAt_in 4 rfl _).trans ((A_eq m c 4).trans (V_main_arg4 m c)))),
      (((h c).1 5).trans (((dats m 0 c).arrAt_in 5 rfl _).trans ((A_eq m c 5).trans (V_main_arg5 m c)))),
      (((h c).1 6).trans (((dats m 0 c).arrAt_in 6 rfl _).trans ((A_eq m c 6).trans (V_main_arg6 m c)))),
      (((h c).1 7).trans (((dats m 0 c).arrAt_in 7 rfl _).trans ((A_eq m c 7).trans (V_main_arg7 m c)))),
      (((h c).2 main_arg8 (Pipeline.mem_restRefs_of main_arg8 (by decide) (by decide))).trans (W_main_arg8 m (dats m) c)),
      (((h c).1 9).trans (((dats m 0 c).arrAt_in 9 rfl _).trans ((A_eq m c 9).trans (V_main_arg9 m c))))⟩)
    (run_main m ρ)

end KernelRun

/-- The ideal pass rewrote no operation: nothing to restate. -/
theorem preserves : Cert.preserves_Kernel_KernelIdeal := trivial

/-- From memories that agree on the ten arguments both programs end with the same two results: the kernel's are the
    reference's stages of its own arguments, and those arguments are the reference's. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v58_eq, h0, h1, h2, h3, h4, h5, h6, h7, h8, h9]
  · obtain ⟨h0, h1, h2, h3, h4, h5, h6, h7, h8, h9⟩ := hagree c
    rw [Cert.ReferenceIdeal.Read.val_main_v61_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
